-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x2048 : Shape := ⟨2, ![8192, 2048]⟩
abbrev S256x256 : Shape := ⟨2, ![256, 256]⟩
abbrev S256 : Shape := ⟨1, ![256]⟩
abbrev S_ : Shape := ⟨0, ![]⟩
abbrev S8192 : Shape := ⟨1, ![8192]⟩
abbrev S2048 : Shape := ⟨1, ![2048]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x2048_S8192_d1 : S8192x2048.ReducesTo [1] S8192
  bcast_S_S8192 : S_.BroadcastsInDim S8192 (![] : Fin 0 → Fin S8192.rank)
  reducesTo_S8192_S_d0 : S8192.ReducesTo [0] S_
  reducesTo_S8192x2048_S2048_d0 : S8192x2048.ReducesTo [0] S2048
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : FVec F S8192x2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x2048_S8192_d1 h_S_) main_arg1 main_cst_6
  let main_cst_7 : FVec F S_ .f32 := constant S_ .f32 0x00000000#32
  let main_v20 : FVec F S8192 .f32 := broadcastInDim S8192 ![] bcast_S_S8192 main_cst_7
  let main_v21 : IVec S8192 1 := cmpf .ogt main_v19 main_v20
  let main_c_8 : IVec S_ 1 := constantI S_ 1 1#1
  let main_v22 : IVec S_ 1 := (fun x v => Host.reduce IntOp.andi x v reducesTo_S8192_S_d0 h_S_) main_v21 main_c_8
  let main_v23 : IVec S_ 1 := andi main_v18 main_v22
  let main_cst_9 : FVec F S_ .f32 := constant S_ .f32 0x00000000#32
  let main_v24 : FVec F S2048 .f32 := (fun x v => Host.reduceAdd x v reducesTo_S8192x2048_S2048_d0 h_S_) main_arg1 main_cst_9
  let main_cst_10 : FVec F S_ .f32 := constant S_ .f32 0x00000000#32
  let main_v25 : FVec F S2048 .f32 := broadcastInDim S2048 ![] bcast_S_S2048 main_cst_10
  let main_v26 : IVec S2048 1 := cmpf .une main_v24 main_v25
  let main_c_11 : IVec S_ 1 := constantI S_ 1 1#1
  let main_v27 : IVec S_ 1 := (fun x v => Host.reduce IntOp.andi x v reducesTo_S2048_S_d0 h_S_) main_v26 main_c_11
  let main_v28 : IVec S_ 1 := andi main_v23 main_v27
  main_v28

def fn {F : FTy → Type} [FloatOps F] (main_arg0 : FVec F S8192x256 .f32) (main_arg1 : FVec F S8192x2048 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x2048 : Shape := ⟨2, ![8192, 2048]⟩
abbrev S256x256 : Shape := ⟨2, ![256, 256]⟩
abbrev S256 : Shape := ⟨1, ![256]⟩
abbrev S2x256x2048 : Shape := ⟨3, ![2, 256, 2048]⟩
abbrev S2x1x2048 : Shape := ⟨3, ![2, 1, 2048]⟩
abbrev S512x2048 : Shape := ⟨2, ![512, 2048]⟩
abbrev S512x256 : Shape := ⟨2, ![512, 256]⟩
abbrev S1x256x2048 : Shape := ⟨3, ![1, 256, 2048]⟩
abbrev S1x1x2048 : Shape := ⟨3, ![1, 1, 2048]⟩
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S1x256 : Shape := ⟨2, ![1, 256]⟩
abbrev S512 : Shape := ⟨1, ![512]⟩
abbrev S512x1 : Shape := ⟨2, ![512, 1]⟩

abbrev nBuf : Space → Nat
  | .hbm => 17
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S256x256, .f32⟩
  | .hbm, ⟨3, _⟩ => ⟨S256, .f32⟩
  | .hbm, ⟨4, _⟩ => ⟨S2x256x2048, .f32⟩
  | .hbm, ⟨5, _⟩ => ⟨S2x1x2048, .f32⟩
  | .hbm, ⟨6, _⟩ => ⟨S_, .f32⟩
  | .hbm, ⟨7, _⟩ => ⟨S256x2048, .f32⟩
  | .hbm, ⟨8, _⟩ => ⟨S_, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S256x2048, .f32⟩
  | .hbm, ⟨14, _⟩ => ⟨S256x2048, .f32⟩
  | .hbm, ⟨15, _⟩ => ⟨S1x256, .f32⟩
  | .hbm, ⟨16, _⟩ => ⟨S8192x256, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x256x2048, .f32⟩
  | .local _ .vmem, ⟨5, _⟩ => ⟨S1x1x2048, .f32⟩
  | .local _ .vmem, ⟨6, _⟩ => ⟨S256x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S256x2048, .f32⟩
  | .local _ .vmem, ⟨11, _⟩ => ⟨S256x256, .f32⟩
  | .local _ .vmem, ⟨12, _⟩ => ⟨S1x256, .f32⟩
  | .local _ .vmem, ⟨13, _⟩ => ⟨S512x256, .f32⟩
  | .local _ .vmem, ⟨14, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  reduces_S512x2048_S2048 : S512x2048.Reduces [0] S2048
  shapeCasts_S2048_S1x2048 : S2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  reducesTo_S2x256x2048_S256x2048_d0 : S2x256x2048.ReducesTo [0] S256x2048
  h_S_ : 0 < S_.numel
  reducesTo_S2x1x2048_S1x2048_d0 : S2x1x2048.ReducesTo [0] S1x2048
  bcast_S_S1x2048 : S_.BroadcastsInDim S1x2048 (![] : Fin 0 → Fin S1x2048.rank)
  bcast_S1x2048_S256x2048_0_1 : S1x2048.BroadcastsInDim S256x2048 (![0, 1] : Fin 2 → Fin S256x2048.rank)
  shapeCasts_S256_S1x256 : S256.ShapeCasts S1x256
  reduces_S512x2048_S512 : S512x2048.Reduces [1] S512
  shapeCasts_S512_S512x1 : S512.ShapeCasts S512x1
  broadcasts_S512x1_S512x256 : S512x1.Broadcasts S512x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x256_S512x2048_S256x2048_0_0_1_1_n_n_wf : DotDims.WF S512x256 S512x2048 S256x2048 [0] [0] [1] [1] [] []
  dot_S512x2048_S256x2048_S512x256_1_1_0_0_n_n_wf : DotDims.WF S512x2048 S256x2048 S512x256 [1] [1] [0] [0] [] []
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S2x256x2048.size a
  hwx0_2 : ∀ i : grid0.Coords, EltTy.bits .f32 = 32 ∨ (Rect.block (s := S2x256x2048) S1x256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S2x1x2048.size a
  hwx0_3 : ∀ i : grid0.Coords, EltTy.bits .f32 = 32 ∨ (Rect.block (s := S2x1x2048) S1x1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S256x2048.size a
  hwx1_1 : ∀ i : grid1.Coords, EltTy.bits .f32 = 32 ∨ (Rect.block (s := S256x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S8192x256.size a
  hwx1_4 : ∀ i : grid1.Coords, EltTy.bits .f32 = 32 ∨ (Rect.block (s := S8192x256) S512x256.size (cc1_transform_4 i) (hinb1_4 i)).WholeWords (EltTy.packing .f32)

variable [Facts₀]

def dot_S512x256_S512x2048_S256x2048_0_0_1_1_n_n : DotDims S512x256 S512x2048 S256x2048 where
  lhsContracting := [0]
  rhsContracting := [0]
  lhsNonContracting := [1]
  rhsNonContracting := [1]
  lhsBatch := []
  rhsBatch := []
  wf := dot_S512x256_S512x2048_S256x2048_0_0_1_1_n_n_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x2048.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x2048 : Shape := ⟨2, ![8192, 2048]⟩
abbrev S256x256 : Shape := ⟨2, ![256, 256]⟩
abbrev S256 : Shape := ⟨1, ![256]⟩
abbrev S_ : Shape := ⟨0, ![]⟩
abbrev S8192 : Shape := ⟨1, ![8192]⟩
abbrev S2048 : Shape := ⟨1, ![2048]⟩
abbrev S2048x8192 : Shape := ⟨2, ![2048, 8192]⟩
abbrev S2048x256 : Shape := ⟨2, ![2048, 256]⟩
abbrev S2048x1 : Shape := ⟨2, ![2048, 1]⟩
abbrev S8192x1 : Shape := ⟨2, ![8192, 1]⟩
abbrev S1x256 : Shape := ⟨2, ![1, 256]⟩

abbrev nBuf : Space → Nat
  | .hbm => 28
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048x8192, .f32⟩
  | .hbm, ⟨15, _⟩ => ⟨S2048x256, .f32⟩
  | .hbm, ⟨16, _⟩ => ⟨S2048x1, .f32⟩
  | .hbm, ⟨17, _⟩ => ⟨S2048x256, .f32⟩
  | .hbm, ⟨18, _⟩ => ⟨S2048x256, .f32⟩
  | .hbm, ⟨19, _⟩ => ⟨S8192x256, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S256x256, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S_S8192 : S_.BroadcastsInDim S8192 (![] : Fin 0 → Fin S8192.rank)
  reducesTo_S8192x2048_S2048_d0 : S8192x2048.ReducesTo [0] S2048
  bcast_S_S2048 : S_.BroadcastsInDim S2048 (![] : Fin 0 → Fin S2048.rank)
  transposes_S8192x2048_S2048x8192_1_0 : S8192x2048.Transposes [1, 0] S2048x8192
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S2048x8192_S8192x256_S2048x256_1_0_0_1_n_n_wf : DotDims.WF S2048x8192 S8192x256 S2048x256 [1] [0] [0] [1] [] []
  dot_S8192x2048_S2048x256_S8192x256_1_0_0_1_n_n_wf : DotDims.WF S8192x2048 S2048x256 S8192x256 [1] [0] [0] [1] [] []
  dot_S8192x256_S256x256_S8192x256_1_0_0_1_n_n_wf : DotDims.WF S8192x256 S256x256 S8192x256 [1] [0] [0] [1] [] []

variable [Facts₀]

def dot_S2048x8192_S8192x256_S2048x256_1_0_0_1_n_n : DotDims S2048x8192 S8192x256 S2048x256 where
  lhsContracting := [1]
  rhsContracting := [0]
  lhsNonContracting := [0]
  rhsNonContracting := [1]
  lhsBatch := []
  rhsBatch := []
  wf := dot_S2048x8192_S8192x256_S2048x256_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Bits.R0Body.lean ====
import proofs.«409522_j46737834115089_3_alg».proof.Proof.Gen.Kernel.Launch
import proofs.«409522_j46737834115089_3_alg».proof.Proof.Gen.Kernel.Skeleton
import proofs.«409522_j46737834115089_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call's body, case by case

The grid is `(core, tile) ∈ 2 × 8`. At tile 0 the body zeroes its two accumulators (the partial
`(Hᵀ X)ᵀ` and the partial column sums of `H`), at every tile it adds the tile's contribution to both, and at
tile 7 it copies both into the output windows. So a point is of one of three kinds: first tile (reset, add),
middle tile (add), last tile (add, copy out). What the body leaves is stated through the payloads of its
stores: `k0_pay3` / `k0_pay4` are the two updates, `k0_pay1` / `k0_pay2` the zero fills, `k0_pay5` /
`k0_pay6` the copies. -/

/-- The first conditional's test: the tile coordinate is zero. -/
abbrev cond0_0 (i : grid0.Coords) : Prop := (Scalar.cmpi .ne (Scalar.extui (Scalar.cmpi .eq (BitVec.ofNat 32 (i 1).val) 0#32)) 0#32) = 1#1
/-- The second conditional's test: the tile coordinate is seven. -/
abbrev cond0_1 (i : grid0.Coords) : Prop := k0_cond2 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

/-- The zero offsets of a rank-2 and of a rank-3 whole-buffer access. -/
theorem hz2 : (![0, 0] : Fin 2 → Nat) = fun _ => 0 := by funext a; fin_cases a <;> rfl
theorem hz3 : (![0, 0, 0] : Fin 3 → Nat) = fun _ => 0 := by funext a; fin_cases a <;> rfl

/-- The whole-buffer rectangles of the body's accesses. -/
abbrev rM : Rect S256x2048 := Rect.unit (s := S256x2048) ![0, 0] S256x2048.size inb_S256x2048_S256x2048_0_0
abbrev rD : Rect S1x2048 := Rect.unit (s := S1x2048) ![0, 0] S1x2048.size inb_S1x2048_S1x2048_0_0
abbrev rO2 : Rect S1x256x2048 := Rect.unit (s := S1x256x2048) ![0, 0, 0] S1x256x2048.size inb_S1x256x2048_S1x256x2048_0_0_0
abbrev rO3 : Rect S1x1x2048 := Rect.unit (s := S1x1x2048) ![0, 0, 0] S1x1x2048.size inb_S1x1x2048_S1x1x2048_0_0_0

/-- One store through the whole-buffer rectangle covers the buffer; so do two, by the later one. -/
theorem coverM (p0 : Vec F S256x2048 .f32) (y : S256x2048.Idx) :
    ∃ pc ∈ ([⟨Rect.unit (s := S256x2048) ![0, 0] S256x2048.size inb_S256x2048_S256x2048_0_0, p0⟩] : List (View.Piece (Elt F) S256x2048 .f32)), y ∈ pc.1.set :=
  View.cover_of_tiled [⟨rM, p0⟩] S256x2048.size (by rfl) y
theorem coverD (p0 : Vec F S1x2048 .f32) (y : S1x2048.Idx) :
    ∃ pc ∈ ([⟨Rect.unit (s := S1x2048) ![0, 0] S1x2048.size inb_S1x2048_S1x2048_0_0, p0⟩] : List (View.Piece (Elt F) S1x2048 .f32)), y ∈ pc.1.set :=
  View.cover_of_tiled [⟨rD, p0⟩] S1x2048.size (by rfl) y
theorem coverO2 (p0 : Vec F S1x256x2048 .f32) (y : S1x256x2048.Idx) :
    ∃ pc ∈ ([⟨Rect.unit (s := S1x256x2048) ![0, 0, 0] S1x256x2048.size inb_S1x256x2048_S1x256x2048_0_0_0, p0⟩] : List (View.Piece (Elt F) S1x256x2048 .f32)), y ∈ pc.1.set :=
  View.cover_of_tiled [⟨rO2, p0⟩] S1x256x2048.size (by rfl) y
theorem coverO3 (p0 : Vec F S1x1x2048 .f32) (y : S1x1x2048.Idx) :
    ∃ pc ∈ ([⟨Rect.unit (s := S1x1x2048) ![0, 0, 0] S1x1x2048.size inb_S1x1x2048_S1x1x2048_0_0_0, p0⟩] : List (View.Piece (Elt F) S1x1x2048 .f32)), y ∈ pc.1.set :=
  View.cover_of_tiled [⟨rO3, p0⟩] S1x1x2048.size (by rfl) y
theorem coverM2 (p0 p1 : Vec F S256x2048 .f32) (y : S256x2048.Idx) :
    ∃ pc ∈ ([⟨Rect.unit (s := S256x2048) ![0, 0] S256x2048.size inb_S256x2048_S256x2048_0_0, p0⟩, ⟨Rect.unit (s := S256x2048) ![0, 0] S256x2048.size inb_S256x2048_S256x2048_0_0, p1⟩] : List (View.Piece (Elt F) S256x2048 .f32)), y ∈ pc.1.set := by
  obtain ⟨pc, hm, hy⟩ := coverM p0 y
  rw [List.mem_singleton] at hm; subst hm
  exact ⟨_, List.mem_cons.mpr (Or.inl rfl), hy⟩
theorem coverD2 (p0 p1 : Vec F S1x2048 .f32) (y : S1x2048.Idx) :
    ∃ pc ∈ ([⟨Rect.unit (s := S1x2048) ![0, 0] S1x2048.size inb_S1x2048_S1x2048_0_0, p0⟩, ⟨Rect.unit (s := S1x2048) ![0, 0] S1x2048.size inb_S1x2048_S1x2048_0_0, p1⟩] : List (View.Piece (Elt F) S1x2048 .f32)), y ∈ pc.1.set := by
  obtain ⟨pc, hm, hy⟩ := coverD p0 y
  rw [List.mem_singleton] at hm; subst hm
  exact ⟨_, List.mem_cons.mpr (Or.inl rfl), hy⟩

set_option maxHeartbeats 1000000 in
/-- A middle tile: both accumulators, found at `a0` and `a1`, are left at their updates; the output buffers are
    not touched. -/
theorem sound_mid (c : Dev nD) (i : grid0.Coords)
    (arg2 : Memref sig .tc .vmem S512x2048 .f32) (harg2 : arg2.IsWhole) (arg3 : Memref sig .tc .vmem S512x256 .f32) (harg3 : arg3.IsWhole)
    (arg4 : Memref sig .tc .vmem S1x256x2048 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S1x2048 .f32) (harg7 : arg7.IsWhole)
    (x0 : Vec F S512x2048 .f32) (x1 : Vec F S512x256 .f32) (E : Set ℕ) (K : PUnit → sProp 𝕄)
    (hc0 : ¬cond0_0 i) (hc1 : ¬cond0_1 i) (xi2 : Vec F S1x256x2048 .f32) (xi3 : Vec F S1x1x2048 .f32)
    (a0 : Vec F S256x2048 .f32) (a1 : Vec F S1x2048 .f32) :
    iprop(owns (c : Thread nD τ) arg2 fullShare x0 ∗ owns (c : Thread nD τ) arg3 fullShare x1
        ∗ owns (c : Thread nD τ) arg4 fullShare xi2 ∗ owns (c : Thread nD τ) arg5 fullShare xi3
        ∗ owns (c : Thread nD τ) arg6 fullShare a0 ∗ owns (c : Thread nD τ) arg7 fullShare a1
        ∗ (iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare (k0_pay3 x0 x1 a0) ∗ owns (c : Thread nD τ) arg7 fullShare (k0_pay4 x0 a1)) -∗ K ⟨⟩))
      ⊢ wp frame (wpE (defs₀ (F := F)) Variants.none c none) E (cc0__partial_m_kernel i arg2 harg2 arg3 harg3 arg4 harg4 arg5 harg5 arg6 harg6 arg7 harg7) K := by
  simp only [cc0__partial_m_kernel_eq_skeleton]; unfold cc0__partial_m_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]
  · iexists _; isplitr; swap; · iexact H6
    ipureintro
    refine (View.read_writes_eq_canon _ _ _ (coverM _)).trans ?_
    rw [View.canon_unit_zero hz2]
    simp only [View.readAt_eq_ld, View.ld_unit_zero (S := S512x2048) hz2, View.ld_unit_zero (S := S512x256) hz2, View.ld_unit_zero (S := S256x2048) hz2]
  · iexists _; isplitr; swap; · iexact H7
    ipureintro
    refine (View.read_writes_eq_canon _ _ _ (coverD _)).trans ?_
    rw [View.canon_unit_zero hz2]
    simp only [View.readAt_eq_ld, View.ld_unit_zero (S := S512x2048) hz2, View.ld_unit_zero (S := S1x2048) hz2]

set_option maxHeartbeats 1000000 in
/-- The first tile: whatever the accumulators held, they are zeroed and left at the updates of the zero fills. -/
theorem sound_first (c : Dev nD) (i : grid0.Coords)
    (arg2 : Memref sig .tc .vmem S512x2048 .f32) (harg2 : arg2.IsWhole) (arg3 : Memref sig .tc .vmem S512x256 .f32) (harg3 : arg3.IsWhole)
    (arg4 : Memref sig .tc .vmem S1x256x2048 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S1x2048 .f32) (harg7 : arg7.IsWhole)
    (x0 : Vec F S512x2048 .f32) (x1 : Vec F S512x256 .f32) (E : Set ℕ) (K : PUnit → sProp 𝕄)
    (hc0 : cond0_0 i) (hc1 : ¬cond0_1 i) (xi2 : Vec F S1x256x2048 .f32) (xi3 : Vec F S1x1x2048 .f32) :
    iprop(owns (c : Thread nD τ) arg2 fullShare x0 ∗ owns (c : Thread nD τ) arg3 fullShare x1
        ∗ owns (c : Thread nD τ) arg4 fullShare xi2 ∗ owns (c : Thread nD τ) arg5 fullShare xi3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare (k0_pay3 x0 x1 k0_pay1) ∗ owns (c : Thread nD τ) arg7 fullShare (k0_pay4 x0 k0_pay2)) -∗ K ⟨⟩))
      ⊢ wp frame (wpE (defs₀ (F := F)) Variants.none c none) E (cc0__partial_m_kernel i arg2 harg2 arg3 harg3 arg4 harg4 arg5 harg5 arg6 harg6 arg7 harg7) K := by
  simp only [cc0__partial_m_kernel_eq_skeleton]; unfold cc0__partial_m_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
  subst hf0; subst hf1; subst hf2; subst hf3
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]
  · iexists _; isplitr; swap; · iexact H6
    ipureintro
    sl_unfold_words
    refine (View.read_writes_eq_canon _ _ _ (coverM2 _ _)).trans ?_
    rw [View.canon_cons_unit_zero hz2]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]
  · iexists _; isplitr; swap; · iexact H7
    ipureintro
    sl_unfold_words
    refine (View.read_writes_eq_canon _ _ _ (coverD2 _ _)).trans ?_
    rw [View.canon_cons_unit_zero hz2]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]

set_option maxHeartbeats 1000000 in
/-- The last tile: the accumulators are updated and their new contents copied into the two output buffers,
    whatever those held. -/
theorem sound_last (c : Dev nD) (i : grid0.Coords)
    (arg2 : Memref sig .tc .vmem S512x2048 .f32) (harg2 : arg2.IsWhole) (arg3 : Memref sig .tc .vmem S512x256 .f32) (harg3 : arg3.IsWhole)
    (arg4 : Memref sig .tc .vmem S1x256x2048 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S1x2048 .f32) (harg7 : arg7.IsWhole)
    (x0 : Vec F S512x2048 .f32) (x1 : Vec F S512x256 .f32) (E : Set ℕ) (K : PUnit → sProp 𝕄)
    (hc0 : ¬cond0_0 i) (hc1 : cond0_1 i) (a0 : Vec F S256x2048 .f32) (a1 : Vec F S1x2048 .f32) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare a0 ∗ owns (c : Thread nD τ) arg7 fullShare a1
        ∗ (iprop(owns (c : Thread nD τ) arg2 fullShare x0 ∗ owns (c : Thread nD τ) arg3 fullShare x1
            ∗ owns (c : Thread nD τ) arg4 fullShare (k0_pay5 (k0_pay3 x0 x1 a0)) ∗ owns (c : Thread nD τ) arg5 fullShare (k0_pay6 (k0_pay4 x0 a1))
            ∗ owns (c : Thread nD τ) arg6 fullShare (k0_pay3 x0 x1 a0) ∗ owns (c : Thread nD τ) arg7 fullShare (k0_pay4 x0 a1)) -∗ K ⟨⟩))
      ⊢ wp frame (wpE (defs₀ (F := F)) Variants.none c none) E (cc0__partial_m_kernel i arg2 harg2 arg3 harg3 arg4 harg4 arg5 harg5 arg6 harg6 arg7 harg7) K := by
  simp only [cc0__partial_m_kernel_eq_skeleton]; unfold cc0__partial_m_kernel_skel
  unfold owns
  iintro ⟨⟨%f0, %hf0, H0⟩, ⟨%f1, %hf1, H1⟩, ⟨%d2, %f2, -, H2⟩, ⟨%d3, %f3, -, H3⟩, ⟨%f6, %hf6, H6⟩, ⟨%f7, %hf7, H7⟩, Hk⟩
  subst hf0; subst hf1; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]
  · iexists _; isplitr; swap; · iexact H2
    ipureintro
    sl_unfold_words
    refine (View.read_writes_eq_canon _ _ _ (coverO2 _)).trans ?_
    rw [View.canon_unit_zero hz3]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]
  isplitl [H3]
  · iexists _; isplitr; swap; · iexact H3
    ipureintro
    sl_unfold_words
    refine (View.read_writes_eq_canon _ _ _ (coverO3 _)).trans ?_
    rw [View.canon_unit_zero hz3]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]
  isplitl [H6]
  · iexists _; isplitr; swap; · iexact H6
    ipureintro
    sl_unfold_words
    refine (View.read_writes_eq_canon _ _ _ (coverM _)).trans ?_
    rw [View.canon_unit_zero hz2]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]
  · iexists _; isplitr; swap; · iexact H7
    ipureintro
    sl_unfold_words
    refine (View.read_writes_eq_canon _ _ _ (coverD _)).trans ?_
    rw [View.canon_unit_zero hz2]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]

end Cert.Kernel.R0

end
-- ==== Proof.Bits.R0Data.lean ====
import proofs.«409522_j46737834115089_3_alg».proof.Proof.Gen.Kernel.Launch
import proofs.«409522_j46737834115089_3_alg».proof.Proof.Gen.Kernel.Skeleton
import proofs.«409522_j46737834115089_3_alg».proof.Proof.Gen.Kernel.Points
import proofs.«409522_j46737834115089_3_alg».proof.Proof.Bits.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: proof data and body obligation

Window 0 is the tile of `H`, window 1 the tile of `X` (both fetched at every point); windows 2 and 3 are the two
results, one block per core, written back at the core's last tile only.  Between points the body keeps two
accumulators in scratch memory.  `accM t` and `accD t` say what they hold after the points below `t`: a core's
first tile starts from the zero fills, every tile adds its contribution. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregate accumulator after the points below `t`. -/
def accM (c : Dev nD) : ℕ → Vec F S256x2048 .f32
  | 0 => k0_pay1
  | t + 1 => if h : t < cfg0.N then k0_pay3 (iblk0 V c 0 ⟨t, h⟩) (iblk0 V c 1 ⟨t, h⟩) (if t % 8 = 0 then k0_pay1 else accM c t) else accM c t

/-- The degree accumulator after the points below `t`. -/
def accD (c : Dev nD) : ℕ → Vec F S1x2048 .f32
  | 0 => k0_pay2
  | t + 1 => if h : t < cfg0.N then k0_pay4 (iblk0 V c 0 ⟨t, h⟩) (if t % 8 = 0 then k0_pay2 else accD c t) else accD c t

theorem accM_succ (c : Dev nD) (t : Fin cfg0.N) :
    accM V c (t.val + 1) = k0_pay3 (iblk0 V c 0 t) (iblk0 V c 1 t) (if t.val % 8 = 0 then k0_pay1 else accM V c t.val) := by
  rw [accM, dif_pos t.isLt]
theorem accD_succ (c : Dev nD) (t : Fin cfg0.N) :
    accD V c (t.val + 1) = k0_pay4 (iblk0 V c 0 t) (if t.val % 8 = 0 then k0_pay2 else accD V c t.val) := by
  rw [accD, dif_pos t.isLt]

/-- The two scratch accumulators as whole memrefs. -/
abbrev scM : Memref sig .tc .vmem S256x2048 .f32 := Memref.whole cc0_scratch0
abbrev scD : Memref sig .tc .vmem S1x2048 .f32 := Memref.whole cc0_scratch1

/-- The scoped buffers the first launch neither stages nor uses: the second launch's staging buffers, at anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The scoped buffers no window of the first launch stages: the two accumulators and the rest. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ (∃ d, owns (c : Thread nD τ) scD fullShare d) ∗ rest0 (F := F) c) := by
  rw [scopedRest0_eq]; unfold rest0; simp only [scM, scD, owns_whole]; try rfl

/-- The invariant before point `t`: each accumulator at what the points of its core's run so far left (nothing is
    claimed where a core's run begins: the first tile overwrites it), the rest of the scoped memory and the generator
    register untouched. -/
def Φ0 (c : Dev nD) (t : Fin (cfg0.N + 1)) : sProp 𝕄 :=
  iprop((∃ a0, ⌜t.val % 8 ≠ 0 → a0 = accM V c t.val⌝ ∗ owns (c : Thread nD τ) scM fullShare a0)
    ∗ (∃ a1, ⌜t.val % 8 ≠ 0 → a1 = accD V c t.val⌝ ∗ owns (c : Thread nD τ) scD fullShare a1)
    ∗ rest0 (F := F) c ∗ ∃ r, prngReg c r)

/-- The proof data of the first launch on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay5 (accM V c (t.val + 1))
    | ⟨3, _⟩ => k0_pay6 (accD V c (t.val + 1))
  Φ t := Φ0 V c t
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay5 (accM V c (t.val + 1)) := by dsimp only [dat0]
theorem after0_3 (c : Dev nD) (t : Fin cfg0.N) : (dat0 V c).after 3 t = k0_pay6 (accD V c (t.val + 1)) := by dsimp only [dat0]

/-- Each input's current staging buffer holds its block at every point (both are fetched at every point). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Where the result windows are idle: everywhere but a core's last tile; and they are written back there only. -/
theorem idle0_2 : ∀ t : Fin cfg0.N, cfg0.idle 2 (grid0.coords t) = !decide (t.val % 8 = 7) := by decide +kernel
theorem idle0_3 : ∀ t : Fin cfg0.N, cfg0.idle 3 (grid0.coords t) = !decide (t.val % 8 = 7) := by decide +kernel
theorem flushB0_2 : ∀ t : Fin cfg0.N, (cfg0.win 2).flush t = decide (t.val % 8 = 7) := by decide +kernel
theorem flushB0_3 : ∀ t : Fin cfg0.N, (cfg0.win 3).flush t = decide (t.val % 8 = 7) := by decide +kernel

/-! ## The body obligation -/

/-- What the body leaves in the inputs' buffers: their blocks (an input is never idle). -/
theorem leaves0_0 (c : Dev nD) (t : Fin cfg0.N) : (dat0 V c).leavesExact 0 t = owns (c : Thread nD τ) (st0_0 t) fullShare ((dat0 V c).after 0 t) := rfl
theorem leaves0_1 (c : Dev nD) (t : Fin cfg0.N) : (dat0 V c).leavesExact 1 t = owns (c : Thread nD τ) (st0_1 t) fullShare ((dat0 V c).after 1 t) := rfl
/-- Off a core's last tile the result buffers are handed back as found; -/
theorem leaves0_2_idle (c : Dev nD) (t : Fin cfg0.N) (h7 : t.val % 8 ≠ 7) :
    (dat0 V c).leavesExact 2 t = iprop(∃ d, owns (c : Thread nD τ) (st0_2 t) fullShare ((dat0 V c).before 2 t d)) :=
  Dat.leavesExact_idle _ 2 t (by rw [idle0_2 t, decide_eq_false h7]; rfl) (by rw [flushB0_2 t, decide_eq_false h7])
theorem leaves0_3_idle (c : Dev nD) (t : Fin cfg0.N) (h7 : t.val % 8 ≠ 7) :
    (dat0 V c).leavesExact 3 t = iprop(∃ d, owns (c : Thread nD τ) (st0_3 t) fullShare ((dat0 V c).before 3 t d)) :=
  Dat.leavesExact_idle _ 3 t (by rw [idle0_3 t, decide_eq_false h7]; rfl) (by rw [flushB0_3 t, decide_eq_false h7])
/-- on it they hold the copies of the accumulators. -/
theorem leaves0_2_live (c : Dev nD) (t : Fin cfg0.N) (h7 : t.val % 8 = 7) :
    (dat0 V c).leavesExact 2 t = owns (c : Thread nD τ) (st0_2 t) fullShare ((dat0 V c).after 2 t) := by
  unfold Dat.leavesExact; rw [idle0_2 t, decide_eq_true h7]; rfl
theorem leaves0_3_live (c : Dev nD) (t : Fin cfg0.N) (h7 : t.val % 8 = 7) :
    (dat0 V c).leavesExact 3 t = owns (c : Thread nD τ) (st0_3 t) fullShare ((dat0 V c).after 3 t) := by
  unfold Dat.leavesExact; rw [idle0_3 t, decide_eq_true h7]; rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 1000000 in
/-- The body at any point, by the kind of the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [leaves0_0, leaves0_1, after0_0, after0_1,
    show (dat0 V c).Φ t.succ = Φ0 V c t.succ from rfl, show (dat0 V c).Φ t.castSucc = Φ0 V c t.castSucc from rfl,
    show (dat0 V c).owesAt () t.succ = (dat0 V c).owesAt () t.castSucc from rfl]
  unfold Φ0
  have hs : (t.succ : Fin (cfg0.N + 1)).val = t.val + 1 := rfl
  have hcs : (t.castSucc : Fin (cfg0.N + 1)).val = t.val := rfl
  rw [hs, hcs]
  by_cases h0 : t.val % 8 = 0
  · -- a core's first tile
    have h7 : t.val % 8 ≠ 7 := by omega
    have hc0 : cond0_0 (grid0.coords t) := (hcond0_0 t).mpr h0
    have hc1 : ¬cond0_1 (grid0.coords t) := fun h => h7 ((hcond0_1 t).mp h)
    rw [leaves0_2_idle V c t h7, leaves0_3_idle V c t h7]
    iintro ⟨⟨⟨%a0, -, HM⟩, ⟨%a1, -, HD⟩, Hrest, Hp⟩, Ho, ⟨%d0, H0⟩, ⟨%d1, H1⟩, ⟨%d2, H2⟩, ⟨%d3, H3⟩⟩
    iapply (sound_first c (grid0.coords t) _ _ _ _ _ _ _ _ scM (Memref.isWhole_whole _) scD (Memref.isWhole_whole _)
      (iblk0 V c 0 t) (iblk0 V c 1 t) Set.univ _ hc0 hc1 ((dat0 V c).before 2 t d2) ((dat0 V c).before 3 t d3))
    isplitl [H0]; · iexact H0
    isplitl [H1]; · iexact H1
    isplitl [H2]; · iexact H2
    isplitl [H3]; · iexact H3
    isplitl [HM]; · iexists _; iexact HM
    isplitl [HD]; · iexists _; iexact HD
    iintro ⟨H0, H1, H2, H3, HM, HD⟩
    isplitl [HM HD Hrest Hp]
    · isplitl [HM]
      · iexists _; isplitr; swap; · iexact HM
        ipureintro; intro _; rw [accM_succ, if_pos h0]
      isplitl [HD]
      · iexists _; isplitr; swap; · iexact HD
        ipureintro; intro _; rw [accD_succ, if_pos h0]
      isplitl [Hrest]; · iexact Hrest
      iexact Hp
    isplitl [Ho]; · iexact Ho
    isplitl [H0]; · iexact H0
    isplitl [H1]; · iexact H1
    isplitl [H2]; · iexists _; iexact H2
    iexists _; iexact H3
  · by_cases h7 : t.val % 8 = 7
    · -- a core's last tile
      have hc0 : ¬cond0_0 (grid0.coords t) := fun h => h0 ((hcond0_0 t).mp h)
      have hc1 : cond0_1 (grid0.coords t) := (hcond0_1 t).mpr h7
      rw [leaves0_2_live V c t h7, leaves0_3_live V c t h7, after0_2, after0_3]
      iintro ⟨⟨⟨%a0, %ha0, HM⟩, ⟨%a1, %ha1, HD⟩, Hrest, Hp⟩, Ho, ⟨%d0, H0⟩, ⟨%d1, H1⟩, ⟨%d2, H2⟩, ⟨%d3, H3⟩⟩
      obtain rfl := ha0 h0; obtain rfl := ha1 h0
      iapply (sound_last c (grid0.coords t) _ _ _ _ _ _ _ _ scM (Memref.isWhole_whole _) scD (Memref.isWhole_whole _)
        (iblk0 V c 0 t) (iblk0 V c 1 t) Set.univ _ hc0 hc1 (accM V c t.val) (accD V c t.val))
      isplitl [H0]; · iexact H0
      isplitl [H1]; · iexact H1
      isplitl [H2]; · iexists _; iexact H2
      isplitl [H3]; · iexists _; iexact H3
      isplitl [HM]; · iexact HM
      isplitl [HD]; · iexact HD
      iintro ⟨H0, H1, H2, H3, HM, HD⟩
      isplitl [HM HD Hrest Hp]
      · isplitl [HM]
        · iexists _; isplitr; swap; · iexact HM
          ipureintro; intro _; rw [accM_succ, if_neg h0]
        isplitl [HD]
        · iexists _; isplitr; swap; · iexact HD
          ipureintro; intro _; rw [accD_succ, if_neg h0]
        isplitl [Hrest]; · iexact Hrest
        iexact Hp
      isplitl [Ho]; · iexact Ho
      isplitl [H0]; · iexact H0
      isplitl [H1]; · iexact H1
      isplitl [H2]
      · rw [accM_succ, if_neg h0]; iexact H2
      rw [accD_succ, if_neg h0]; iexact H3
    · -- a middle tile
      have hc0 : ¬cond0_0 (grid0.coords t) := fun h => h0 ((hcond0_0 t).mp h)
      have hc1 : ¬cond0_1 (grid0.coords t) := fun h => h7 ((hcond0_1 t).mp h)
      rw [leaves0_2_idle V c t h7, leaves0_3_idle V c t h7]
      iintro ⟨⟨⟨%a0, %ha0, HM⟩, ⟨%a1, %ha1, HD⟩, Hrest, Hp⟩, Ho, ⟨%d0, H0⟩, ⟨%d1, H1⟩, ⟨%d2, H2⟩, ⟨%d3, H3⟩⟩
      obtain rfl := ha0 h0; obtain rfl := ha1 h0
      iapply (sound_mid c (grid0.coords t) _ _ _ _ _ _ _ _ scM (Memref.isWhole_whole _) scD (Memref.isWhole_whole _)
        (iblk0 V c 0 t) (iblk0 V c 1 t) Set.univ _ hc0 hc1 ((dat0 V c).before 2 t d2) ((dat0 V c).before 3 t d3) (accM V c t.val) (accD V c t.val))
      isplitl [H0]; · iexact H0
      isplitl [H1]; · iexact H1
      isplitl [H2]; · iexact H2
      isplitl [H3]; · iexact H3
      isplitl [HM]; · iexact HM
      isplitl [HD]; · iexact HD
      iintro ⟨H0, H1, H2, H3, HM, HD⟩
      isplitl [HM HD Hrest Hp]
      · isplitl [HM]
        · iexists _; isplitr; swap; · iexact HM
          ipureintro; intro _; rw [accM_succ, if_neg h0]
        isplitl [HD]
        · iexists _; isplitr; swap; · iexact HD
          ipureintro; intro _; rw [accD_succ, if_neg h0]
        isplitl [Hrest]; · iexact Hrest
        iexact Hp
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.Bits.R1.lean ====
import proofs.«409522_j46737834115089_3_alg».proof.Proof.Gen.Kernel.Launch
import proofs.«409522_j46737834115089_3_alg».proof.Proof.Gen.Kernel.Skeleton
import proofs.«409522_j46737834115089_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second pallas_call as pipeline proof data

The output kernel runs on a grid of sixteen points. At each point it reads a tile `H` of
`512 × 2048` values, the whole matrices `M` (`256 × 2048`), `W` (`256 × 256`) and the row `b`
(`1 × 256`), and writes one tile of `512 × 256` values. This module says, for any contents `V` of
the core's buffers on entry, what every window's staging buffer holds before and after the body
at each point, and proves that the body turns the one into the other.

Everything is stated for an arbitrary float instance, so that it can be read both over the
idealised numbers and over machine words.
-/

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`: the part of the window's array, at the contents `V`
    found on entry, that the window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches: each is the whole of its staging buffer -/

abbrev rH : Rect S512x2048 := Rect.unit (s := S512x2048) ![0, 0] S512x2048.size inb_S512x2048_S512x2048_0_0
abbrev rM : Rect S256x2048 := Rect.unit (s := S256x2048) ![0, 0] S256x2048.size inb_S256x2048_S256x2048_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rO : Rect S512x256 := Rect.unit (s := S512x256) ![0, 0] S512x256.size inb_S512x256_S512x256_0_0

/-! ## The value the body leaves in the output tile -/

/-- From the four input blocks, the contents of the output staging buffer once the body has run: a
    single store of the kernel's payload, evaluated on the loaded blocks, over the whole tile. -/
def out1_4 (x0 : Vec F S512x2048 .f32) (x1 : Vec F S256x2048 .f32) (x2 : Vec F S256x256 .f32) (x3 : Vec F S1x256 .f32) : Vec F S512x256 .f32 :=
  View.canon [⟨rO, k1_pay1 (View.ld x0 rH) (View.ld x1 rM) (View.ld x2 rW) (View.ld x3 rB)⟩]

/-- The one stored rectangle is the whole tile, so every index of the tile lies in it. -/
theorem cover1_4 (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body on whole staging buffers -/

set_option maxHeartbeats 1000000 in
/-- Run on five whole staging buffers, the first four holding `x0 … x3` and the fifth holding
    anything, the kernel function ends with the four inputs unchanged and the fifth buffer at
    `out1_4 x0 x1 x2 x3`. The function is a sequence of five loads and one store; the load of the
    output buffer reads whatever is there and its value is not used. -/
theorem sound_kernel1 (c : Dev nD) (E : Set ℕ) (i : grid1.Coords)
    (arg1 : Memref sig .tc .vmem S512x2048 .f32) (harg1 : arg1.IsWhole)
    (arg2 : Memref sig .tc .vmem S256x2048 .f32) (harg2 : arg2.IsWhole)
    (arg3 : Memref sig .tc .vmem S256x256 .f32) (harg3 : arg3.IsWhole)
    (arg4 : Memref sig .tc .vmem S1x256 .f32) (harg4 : arg4.IsWhole)
    (arg5 : Memref sig .tc .vmem S512x256 .f32) (harg5 : arg5.IsWhole)
    (x0 : Vec F S512x2048 .f32) (x1 : Vec F S256x2048 .f32) (x2 : Vec F S256x256 .f32) (x3 : Vec F S1x256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__output_kernel i arg1 harg1 arg2 harg2 arg3 harg3 arg4 harg4 arg5 harg5) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the pipeline -/

/-- The proof data on core `c`. The arrays are as found on entry. After the body at point `t` each
    input's staging buffer still holds that input's block, and the output's holds `out1_4` of the
    four blocks. The invariant is the library's (the untouched rest of the scoped memory); all
    shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ### What an input's buffer holds when the body starts

An input's buffer is refilled only when its block index moves. The tile `H` moves at every point.
`M`, `W` and `b` have a constant index: they are brought in once, at the first point, and since
the body leaves them in place the buffer holds the same block — which is the block of every
point — ever after. Either way the buffer holds the block of the current point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

/-- What the body is given at point `t`: the invariant, the core's tally, and each window's
    current staging buffer at whatever the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At every point the four input buffers hold their blocks, so the kernel's triple applies with
    those blocks; the invariant and the tally are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation on the body, at every point of the grid. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.Bits.Run.lean ====
import proofs.«409522_j46737834115089_3_alg».proof.Proof.Gen.Kernel.Launch
import proofs.«409522_j46737834115089_3_alg».proof.Proof.Gen.Kernel.Skeleton
import proofs.«409522_j46737834115089_3_alg».proof.Proof.Gen.Kernel.Points
import proofs.«409522_j46737834115089_3_alg».proof.Proof.Bits.R0Data
import proofs.«409522_j46737834115089_3_alg».proof.Proof.Bits.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

@main is the first launch, ten host operations, the second launch.  The buffer contents at each boundary are a fold
from the launch memory: after a launch its windows' arrays hold what its write-backs left and every other buffer is as
it was; after the host operations each holds the operations' result.  Every launch is entered from "all unscoped
buffers at the boundary's contents" and left at the next boundary's. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first launch: its arrays at what its write-backs leave, every other buffer as entered. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second launch's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second launch. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every launch's proof data at its entry contents. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- The first launch: entered from the launch contents, left at `W1`.  The generator register goes into the invariant
    and comes back; the two accumulators are found at anything and given back at anything. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Ix := Unit) (Name := ℕ) (U := UR sig nD τ) (Lvl := ℕ) (Val := Elt F) (Pipeline.pin (pcfgs (F := F)) adm 0).spec c : sProp 𝕄) = _ :=
      R0.scoped0_eq (F := F) c
    rw [show (pdats m ρ 0 c).Φ 0 = R0.Φ0 (V0 m ρ) c 0 from rfl, hs]; unfold R0.Φ0
    iintro ⟨Hp, -, ⟨%d0, HM⟩, ⟨%d1, HD⟩, Hr⟩
    isplitl [HM]
    · iexists _; isplitr; swap; · iexact HM
      ipureintro; intro h; exact absurd rfl h
    isplitl [HD]
    · iexists _; isplitr; swap; · iexact HD
      ipureintro; intro h; exact absurd rfl h
    isplitl [Hr]; · iexact Hr
    iexact Hp
  hout c := by
    have hs : (Pipeline.scopedRest (Ix := Unit) (Name := ℕ) (U := UR sig nD τ) (Lvl := ℕ) (Val := Elt F) (Pipeline.pin (pcfgs (F := F)) adm 0).spec c : sProp 𝕄) = _ :=
      R0.scoped0_eq (F := F) c
    rw [Pipeline.ownSems0_none, show (pdats m ρ 0 c).Φ (Fin.last _) = R0.Φ0 (V0 m ρ) c (Fin.last _) from rfl, hs]; unfold R0.Φ0
    iintro ⟨⟨%a0, -, HM⟩, ⟨%a1, -, HD⟩, Hr, Hp⟩
    isplitl [Hp]; · iexact Hp
    isplitr; · iempintro
    isplitl [HM]; · iexists _; iexact HM
    isplitl [HD]; · iexists _; iexact HD
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from `W2`, left at `W3`; its invariant is the scoped rest and the generator register. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every final
    state has every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Run

end
-- ==== Proof.Bits.RunArgs.lean ====
import proofs.«409522_j46737834115089_3_alg».proof.Proof.Bits.Run
import proofs.«409522_j46737834115089_3_alg».proof.Proof.Gen.Kernel.Regions

noncomputable section

namespace Cert.Kernel.RunArgs

open Cert.Kernel Cert.Kernel.Gen
open Idealize.ShloMosaic Idealize.ShloMosaic.TcCoe
open Idealize.SL Idealize.SL.Sem

variable {F : FTy → Type} [FloatOps F]

/-! # The arguments end as launched

An argument is an input window's array of a launch, which the launch leaves as it found it, or no window's array of it,
which the launch does not touch; and no host operation between the launches writes an argument.  So the contents at
each boundary walk back to the launch memory. -/

/-- After the first launch `main_arg0` holds its launch contents. -/
theorem W1_main_arg0 (m : (ℓ : Loc nD τ sig) → Buf (Elt F) ℓ) (ρ : Dev nD → PrngReg) (c : Dev nD) :
    Run.W1 m ρ c (Proc.devRef .tc main_arg0) = m ((c : Thread nD τ).loc main_arg0) :=
  calc Run.W1 m ρ c (Proc.devRef .tc main_arg0)
    _ = Run.W0 m ρ c (Proc.devRef .tc main_arg0) := (Run.W1_arr m ρ c 1).trans (((R0.dat0 (Run.V0 m ρ) c).arrAt_in 1 rfl _).trans (R0.A_eq0 (Run.V0 m ρ) c 1))
    _ = m ((c : Thread nD τ).loc main_arg0) := rfl

/-- After the host operations `main_arg0` holds its launch contents: none of them writes it. -/
theorem W2_main_arg0 (m : (ℓ : Loc nD τ sig) → Buf (Elt F) ℓ) (ρ : Dev nD → PrngReg) (c : Dev nD) :
    Run.W2 m ρ c (Proc.devRef .tc main_arg0) = m ((c : Thread nD τ).loc main_arg0) :=
  calc Run.W2 m ρ c (Proc.devRef .tc main_arg0)
    _ = Run.W1 m ρ c (Proc.devRef .tc main_arg0) := StableHlo.after_of_writes_sub hostOps1 _ hostOps1_writes (by decide)
    _ = m ((c : Thread nD τ).loc main_arg0) := W1_main_arg0 m ρ c

/-- After the second launch `main_arg0` holds its launch contents. -/
theorem W3_main_arg0 (m : (ℓ : Loc nD τ sig) → Buf (Elt F) ℓ) (ρ : Dev nD → PrngReg) (c : Dev nD) :
    Run.W3 m ρ c (Proc.devRef .tc main_arg0) = m ((c : Thread nD τ).loc main_arg0) :=
  calc Run.W3 m ρ c (Proc.devRef .tc main_arg0)
    _ = Run.W2 m ρ c (Proc.devRef .tc main_arg0) := Run.W3_of_ne m ρ c main_arg0 (by decide)
    _ = m ((c : Thread nD τ).loc main_arg0) := W2_main_arg0 m ρ c

/-- After the first launch `main_arg1` holds its launch contents. -/
theorem W1_main_arg1 (m : (ℓ : Loc nD τ sig) → Buf (Elt F) ℓ) (ρ : Dev nD → PrngReg) (c : Dev nD) :
    Run.W1 m ρ c (Proc.devRef .tc main_arg1) = m ((c : Thread nD τ).loc main_arg1) :=
  calc Run.W1 m ρ c (Proc.devRef .tc main_arg1)
    _ = Run.W0 m ρ c (Proc.devRef .tc main_arg1) := (Run.W1_arr m ρ c 0).trans (((R0.dat0 (Run.V0 m ρ) c).arrAt_in 0 rfl _).trans (R0.A_eq0 (Run.V0 m ρ) c 0))
    _ = m ((c : Thread nD τ).loc main_arg1) := rfl

/-- After the host operations `main_arg1` holds its launch contents: none of them writes it. -/
theorem W2_main_arg1 (m : (ℓ : Loc nD τ sig) → Buf (Elt F) ℓ) (ρ : Dev nD → PrngReg) (c : Dev nD) :
    Run.W2 m ρ c (Proc.devRef .tc main_arg1) = m ((c : Thread nD τ).loc main_arg1) :=
  calc Run.W2 m ρ c (Proc.devRef .tc main_arg1)
    _ = Run.W1 m ρ c (Proc.devRef .tc main_arg1) := StableHlo.after_of_writes_sub hostOps1 _ hostOps1_writes (by decide)
    _ = m ((c : Thread nD τ).loc main_arg1) := W1_main_arg1 m ρ c

/-- After the second launch `main_arg1` holds its launch contents. -/
theorem W3_main_arg1 (m : (ℓ : Loc nD τ sig) → Buf (Elt F) ℓ) (ρ : Dev nD → PrngReg) (c : Dev nD) :
    Run.W3 m ρ c (Proc.devRef .tc main_arg1) = m ((c : Thread nD τ).loc main_arg1) :=
  calc Run.W3 m ρ c (Proc.devRef .tc main_arg1)
    _ = Run.W2 m ρ c (Proc.devRef .tc main_arg1) := (Run.W3_arr m ρ c 0).trans (((R1.dat1 (Run.V2 m ρ) c).arrAt_in 0 rfl _).trans (R1.A_eq1 (Run.V2 m ρ) c 0))
    _ = m ((c : Thread nD τ).loc main_arg1) := W2_main_arg1 m ρ c

/-- After the first launch `main_arg2` holds its launch contents. -/
theorem W1_main_arg2 (m : (ℓ : Loc nD τ sig) → Buf (Elt F) ℓ) (ρ : Dev nD → PrngReg) (c : Dev nD) :
    Run.W1 m ρ c (Proc.devRef .tc main_arg2) = m ((c : Thread nD τ).loc main_arg2) :=
  calc Run.W1 m ρ c (Proc.devRef .tc main_arg2)
    _ = Run.W0 m ρ c (Proc.devRef .tc main_arg2) := Run.W1_of_ne m ρ c main_arg2 (by decide)
    _ = m ((c : Thread nD τ).loc main_arg2) := rfl

/-- After the host operations `main_arg2` holds its launch contents: none of them writes it. -/
theorem W2_main_arg2 (m : (ℓ : Loc nD τ sig) → Buf (Elt F) ℓ) (ρ : Dev nD → PrngReg) (c : Dev nD) :
    Run.W2 m ρ c (Proc.devRef .tc main_arg2) = m ((c : Thread nD τ).loc main_arg2) :=
  calc Run.W2 m ρ c (Proc.devRef .tc main_arg2)
    _ = Run.W1 m ρ c (Proc.devRef .tc main_arg2) := StableHlo.after_of_writes_sub hostOps1 _ hostOps1_writes (by decide)
    _ = m ((c : Thread nD τ).loc main_arg2) := W1_main_arg2 m ρ c

/-- After the second launch `main_arg2` holds its launch contents. -/
theorem W3_main_arg2 (m : (ℓ : Loc nD τ sig) → Buf (Elt F) ℓ) (ρ : Dev nD → PrngReg) (c : Dev nD) :
    Run.W3 m ρ c (Proc.devRef .tc main_arg2) = m ((c : Thread nD τ).loc main_arg2) :=
  calc Run.W3 m ρ c (Proc.devRef .tc main_arg2)
    _ = Run.W2 m ρ c (Proc.devRef .tc main_arg2) := (Run.W3_arr m ρ c 2).trans (((R1.dat1 (Run.V2 m ρ) c).arrAt_in 2 rfl _).trans (R1.A_eq1 (Run.V2 m ρ) c 2))
    _ = m ((c : Thread nD τ).loc main_arg2) := W2_main_arg2 m ρ c

/-- After the first launch `main_arg3` holds its launch contents. -/
theorem W1_main_arg3 (m : (ℓ : Loc nD τ sig) → Buf (Elt F) ℓ) (ρ : Dev nD → PrngReg) (c : Dev nD) :
    Run.W1 m ρ c (Proc.devRef .tc main_arg3) = m ((c : Thread nD τ).loc main_arg3) :=
  calc Run.W1 m ρ c (Proc.devRef .tc main_arg3)
    _ = Run.W0 m ρ c (Proc.devRef .tc main_arg3) := Run.W1_of_ne m ρ c main_arg3 (by decide)
    _ = m ((c : Thread nD τ).loc main_arg3) := rfl

/-- After the host operations `main_arg3` holds its launch contents: none of them writes it. -/
theorem W2_main_arg3 (m : (ℓ : Loc nD τ sig) → Buf (Elt F) ℓ) (ρ : Dev nD → PrngReg) (c : Dev nD) :
    Run.W2 m ρ c (Proc.devRef .tc main_arg3) = m ((c : Thread nD τ).loc main_arg3) :=
  calc Run.W2 m ρ c (Proc.devRef .tc main_arg3)
    _ = Run.W1 m ρ c (Proc.devRef .tc main_arg3) := StableHlo.after_of_writes_sub hostOps1 _ hostOps1_writes (by decide)
    _ = m ((c : Thread nD τ).loc main_arg3) := W1_main_arg3 m ρ c

/-- After the second launch `main_arg3` holds its launch contents. -/
theorem W3_main_arg3 (m : (ℓ : Loc nD τ sig) → Buf (Elt F) ℓ) (ρ : Dev nD → PrngReg) (c : Dev nD) :
    Run.W3 m ρ c (Proc.devRef .tc main_arg3) = m ((c : Thread nD τ).loc main_arg3) :=
  calc Run.W3 m ρ c (Proc.devRef .tc main_arg3)
    _ = Run.W2 m ρ c (Proc.devRef .tc main_arg3) := Run.W3_of_ne m ρ c main_arg3 (by decide)
    _ = m ((c : Thread nD τ).loc main_arg3) := W2_main_arg3 m ρ c

end Cert.Kernel.RunArgs

end
-- ==== Proof.R0Body.lean ====
import proofs.«409522_j46737834115089_3_alg».proof.Proof.Gen.KernelIdeal.Launch
import proofs.«409522_j46737834115089_3_alg».proof.Proof.Gen.KernelIdeal.Skeleton
import proofs.«409522_j46737834115089_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call's body, case by case

The grid is `(core, tile) ∈ 2 × 8`. At tile 0 the body zeroes its two accumulators (the partial
`(Hᵀ X)ᵀ` and the partial column sums of `H`), at every tile it adds the tile's contribution to both, and at
tile 7 it copies both into the output windows. So a point is of one of three kinds: first tile (reset, add),
middle tile (add), last tile (add, copy out). What the body leaves is stated through the payloads of its
stores: `k0_pay3` / `k0_pay4` are the two updates, `k0_pay1` / `k0_pay2` the zero fills, `k0_pay5` /
`k0_pay6` the copies. -/

/-- The first conditional's test: the tile coordinate is zero. -/
abbrev cond0_0 (i : grid0.Coords) : Prop := (Scalar.cmpi .ne (Scalar.extui (Scalar.cmpi .eq (BitVec.ofNat 32 (i 1).val) 0#32)) 0#32) = 1#1
/-- The second conditional's test: the tile coordinate is seven. -/
abbrev cond0_1 (i : grid0.Coords) : Prop := k0_cond2 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

/-- The zero offsets of a rank-2 and of a rank-3 whole-buffer access. -/
theorem hz2 : (![0, 0] : Fin 2 → Nat) = fun _ => 0 := by funext a; fin_cases a <;> rfl
theorem hz3 : (![0, 0, 0] : Fin 3 → Nat) = fun _ => 0 := by funext a; fin_cases a <;> rfl

/-- The whole-buffer rectangles of the body's accesses. -/
abbrev rM : Rect S256x2048 := Rect.unit (s := S256x2048) ![0, 0] S256x2048.size inb_S256x2048_S256x2048_0_0
abbrev rD : Rect S1x2048 := Rect.unit (s := S1x2048) ![0, 0] S1x2048.size inb_S1x2048_S1x2048_0_0
abbrev rO2 : Rect S1x256x2048 := Rect.unit (s := S1x256x2048) ![0, 0, 0] S1x256x2048.size inb_S1x256x2048_S1x256x2048_0_0_0
abbrev rO3 : Rect S1x1x2048 := Rect.unit (s := S1x1x2048) ![0, 0, 0] S1x1x2048.size inb_S1x1x2048_S1x1x2048_0_0_0

/-- One store through the whole-buffer rectangle covers the buffer; so do two, by the later one. -/
theorem coverM (p0 : Vec F S256x2048 .f32) (y : S256x2048.Idx) :
    ∃ pc ∈ ([⟨Rect.unit (s := S256x2048) ![0, 0] S256x2048.size inb_S256x2048_S256x2048_0_0, p0⟩] : List (View.Piece (Elt F) S256x2048 .f32)), y ∈ pc.1.set :=
  View.cover_of_tiled [⟨rM, p0⟩] S256x2048.size (by rfl) y
theorem coverD (p0 : Vec F S1x2048 .f32) (y : S1x2048.Idx) :
    ∃ pc ∈ ([⟨Rect.unit (s := S1x2048) ![0, 0] S1x2048.size inb_S1x2048_S1x2048_0_0, p0⟩] : List (View.Piece (Elt F) S1x2048 .f32)), y ∈ pc.1.set :=
  View.cover_of_tiled [⟨rD, p0⟩] S1x2048.size (by rfl) y
theorem coverO2 (p0 : Vec F S1x256x2048 .f32) (y : S1x256x2048.Idx) :
    ∃ pc ∈ ([⟨Rect.unit (s := S1x256x2048) ![0, 0, 0] S1x256x2048.size inb_S1x256x2048_S1x256x2048_0_0_0, p0⟩] : List (View.Piece (Elt F) S1x256x2048 .f32)), y ∈ pc.1.set :=
  View.cover_of_tiled [⟨rO2, p0⟩] S1x256x2048.size (by rfl) y
theorem coverO3 (p0 : Vec F S1x1x2048 .f32) (y : S1x1x2048.Idx) :
    ∃ pc ∈ ([⟨Rect.unit (s := S1x1x2048) ![0, 0, 0] S1x1x2048.size inb_S1x1x2048_S1x1x2048_0_0_0, p0⟩] : List (View.Piece (Elt F) S1x1x2048 .f32)), y ∈ pc.1.set :=
  View.cover_of_tiled [⟨rO3, p0⟩] S1x1x2048.size (by rfl) y
theorem coverM2 (p0 p1 : Vec F S256x2048 .f32) (y : S256x2048.Idx) :
    ∃ pc ∈ ([⟨Rect.unit (s := S256x2048) ![0, 0] S256x2048.size inb_S256x2048_S256x2048_0_0, p0⟩, ⟨Rect.unit (s := S256x2048) ![0, 0] S256x2048.size inb_S256x2048_S256x2048_0_0, p1⟩] : List (View.Piece (Elt F) S256x2048 .f32)), y ∈ pc.1.set := by
  obtain ⟨pc, hm, hy⟩ := coverM p0 y
  rw [List.mem_singleton] at hm; subst hm
  exact ⟨_, List.mem_cons.mpr (Or.inl rfl), hy⟩
theorem coverD2 (p0 p1 : Vec F S1x2048 .f32) (y : S1x2048.Idx) :
    ∃ pc ∈ ([⟨Rect.unit (s := S1x2048) ![0, 0] S1x2048.size inb_S1x2048_S1x2048_0_0, p0⟩, ⟨Rect.unit (s := S1x2048) ![0, 0] S1x2048.size inb_S1x2048_S1x2048_0_0, p1⟩] : List (View.Piece (Elt F) S1x2048 .f32)), y ∈ pc.1.set := by
  obtain ⟨pc, hm, hy⟩ := coverD p0 y
  rw [List.mem_singleton] at hm; subst hm
  exact ⟨_, List.mem_cons.mpr (Or.inl rfl), hy⟩

set_option maxHeartbeats 1000000 in
/-- A middle tile: both accumulators, found at `a0` and `a1`, are left at their updates; the output buffers are
    not touched. -/
theorem sound_mid (c : Dev nD) (i : grid0.Coords)
    (arg2 : Memref sig .tc .vmem S512x2048 .f32) (harg2 : arg2.IsWhole) (arg3 : Memref sig .tc .vmem S512x256 .f32) (harg3 : arg3.IsWhole)
    (arg4 : Memref sig .tc .vmem S1x256x2048 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S1x2048 .f32) (harg7 : arg7.IsWhole)
    (x0 : Vec F S512x2048 .f32) (x1 : Vec F S512x256 .f32) (E : Set ℕ) (K : PUnit → sProp 𝕄)
    (hc0 : ¬cond0_0 i) (hc1 : ¬cond0_1 i) (xi2 : Vec F S1x256x2048 .f32) (xi3 : Vec F S1x1x2048 .f32)
    (a0 : Vec F S256x2048 .f32) (a1 : Vec F S1x2048 .f32) :
    iprop(owns (c : Thread nD τ) arg2 fullShare x0 ∗ owns (c : Thread nD τ) arg3 fullShare x1
        ∗ owns (c : Thread nD τ) arg4 fullShare xi2 ∗ owns (c : Thread nD τ) arg5 fullShare xi3
        ∗ owns (c : Thread nD τ) arg6 fullShare a0 ∗ owns (c : Thread nD τ) arg7 fullShare a1
        ∗ (iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare (k0_pay3 x0 x1 a0) ∗ owns (c : Thread nD τ) arg7 fullShare (k0_pay4 x0 a1)) -∗ K ⟨⟩))
      ⊢ wp frame (wpE (defs₀ (F := F)) Variants.none c none) E (cc0__partial_m_kernel i arg2 harg2 arg3 harg3 arg4 harg4 arg5 harg5 arg6 harg6 arg7 harg7) K := by
  simp only [cc0__partial_m_kernel_eq_skeleton]; unfold cc0__partial_m_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]
  · iexists _; isplitr; swap; · iexact H6
    ipureintro
    refine (View.read_writes_eq_canon _ _ _ (coverM _)).trans ?_
    rw [View.canon_unit_zero hz2]
    simp only [View.readAt_eq_ld, View.ld_unit_zero (S := S512x2048) hz2, View.ld_unit_zero (S := S512x256) hz2, View.ld_unit_zero (S := S256x2048) hz2]
  · iexists _; isplitr; swap; · iexact H7
    ipureintro
    refine (View.read_writes_eq_canon _ _ _ (coverD _)).trans ?_
    rw [View.canon_unit_zero hz2]
    simp only [View.readAt_eq_ld, View.ld_unit_zero (S := S512x2048) hz2, View.ld_unit_zero (S := S1x2048) hz2]

set_option maxHeartbeats 1000000 in
/-- The first tile: whatever the accumulators held, they are zeroed and left at the updates of the zero fills. -/
theorem sound_first (c : Dev nD) (i : grid0.Coords)
    (arg2 : Memref sig .tc .vmem S512x2048 .f32) (harg2 : arg2.IsWhole) (arg3 : Memref sig .tc .vmem S512x256 .f32) (harg3 : arg3.IsWhole)
    (arg4 : Memref sig .tc .vmem S1x256x2048 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S1x2048 .f32) (harg7 : arg7.IsWhole)
    (x0 : Vec F S512x2048 .f32) (x1 : Vec F S512x256 .f32) (E : Set ℕ) (K : PUnit → sProp 𝕄)
    (hc0 : cond0_0 i) (hc1 : ¬cond0_1 i) (xi2 : Vec F S1x256x2048 .f32) (xi3 : Vec F S1x1x2048 .f32) :
    iprop(owns (c : Thread nD τ) arg2 fullShare x0 ∗ owns (c : Thread nD τ) arg3 fullShare x1
        ∗ owns (c : Thread nD τ) arg4 fullShare xi2 ∗ owns (c : Thread nD τ) arg5 fullShare xi3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare (k0_pay3 x0 x1 k0_pay1) ∗ owns (c : Thread nD τ) arg7 fullShare (k0_pay4 x0 k0_pay2)) -∗ K ⟨⟩))
      ⊢ wp frame (wpE (defs₀ (F := F)) Variants.none c none) E (cc0__partial_m_kernel i arg2 harg2 arg3 harg3 arg4 harg4 arg5 harg5 arg6 harg6 arg7 harg7) K := by
  simp only [cc0__partial_m_kernel_eq_skeleton]; unfold cc0__partial_m_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
  subst hf0; subst hf1; subst hf2; subst hf3
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]
  · iexists _; isplitr; swap; · iexact H6
    ipureintro
    sl_unfold_words
    refine (View.read_writes_eq_canon _ _ _ (coverM2 _ _)).trans ?_
    rw [View.canon_cons_unit_zero hz2]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]
  · iexists _; isplitr; swap; · iexact H7
    ipureintro
    sl_unfold_words
    refine (View.read_writes_eq_canon _ _ _ (coverD2 _ _)).trans ?_
    rw [View.canon_cons_unit_zero hz2]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]

set_option maxHeartbeats 1000000 in
/-- The last tile: the accumulators are updated and their new contents copied into the two output buffers,
    whatever those held. -/
theorem sound_last (c : Dev nD) (i : grid0.Coords)
    (arg2 : Memref sig .tc .vmem S512x2048 .f32) (harg2 : arg2.IsWhole) (arg3 : Memref sig .tc .vmem S512x256 .f32) (harg3 : arg3.IsWhole)
    (arg4 : Memref sig .tc .vmem S1x256x2048 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S1x2048 .f32) (harg7 : arg7.IsWhole)
    (x0 : Vec F S512x2048 .f32) (x1 : Vec F S512x256 .f32) (E : Set ℕ) (K : PUnit → sProp 𝕄)
    (hc0 : ¬cond0_0 i) (hc1 : cond0_1 i) (a0 : Vec F S256x2048 .f32) (a1 : Vec F S1x2048 .f32) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare a0 ∗ owns (c : Thread nD τ) arg7 fullShare a1
        ∗ (iprop(owns (c : Thread nD τ) arg2 fullShare x0 ∗ owns (c : Thread nD τ) arg3 fullShare x1
            ∗ owns (c : Thread nD τ) arg4 fullShare (k0_pay5 (k0_pay3 x0 x1 a0)) ∗ owns (c : Thread nD τ) arg5 fullShare (k0_pay6 (k0_pay4 x0 a1))
            ∗ owns (c : Thread nD τ) arg6 fullShare (k0_pay3 x0 x1 a0) ∗ owns (c : Thread nD τ) arg7 fullShare (k0_pay4 x0 a1)) -∗ K ⟨⟩))
      ⊢ wp frame (wpE (defs₀ (F := F)) Variants.none c none) E (cc0__partial_m_kernel i arg2 harg2 arg3 harg3 arg4 harg4 arg5 harg5 arg6 harg6 arg7 harg7) K := by
  simp only [cc0__partial_m_kernel_eq_skeleton]; unfold cc0__partial_m_kernel_skel
  unfold owns
  iintro ⟨⟨%f0, %hf0, H0⟩, ⟨%f1, %hf1, H1⟩, ⟨%d2, %f2, -, H2⟩, ⟨%d3, %f3, -, H3⟩, ⟨%f6, %hf6, H6⟩, ⟨%f7, %hf7, H7⟩, Hk⟩
  subst hf0; subst hf1; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]
  · iexists _; isplitr; swap; · iexact H2
    ipureintro
    sl_unfold_words
    refine (View.read_writes_eq_canon _ _ _ (coverO2 _)).trans ?_
    rw [View.canon_unit_zero hz3]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]
  isplitl [H3]
  · iexists _; isplitr; swap; · iexact H3
    ipureintro
    sl_unfold_words
    refine (View.read_writes_eq_canon _ _ _ (coverO3 _)).trans ?_
    rw [View.canon_unit_zero hz3]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]
  isplitl [H6]
  · iexists _; isplitr; swap; · iexact H6
    ipureintro
    sl_unfold_words
    refine (View.read_writes_eq_canon _ _ _ (coverM _)).trans ?_
    rw [View.canon_unit_zero hz2]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]
  · iexists _; isplitr; swap; · iexact H7
    ipureintro
    sl_unfold_words
    refine (View.read_writes_eq_canon _ _ _ (coverD _)).trans ?_
    rw [View.canon_unit_zero hz2]
    simp only [View.readAt_eq_ld, View.ld_unit_zero (S := S512x2048) hz2, View.ld_unit_zero (S := S512x256) hz2, View.ld_unit_zero (S := S256x2048) hz2, View.ld_unit_zero (S := S1x2048) hz2, View.readCov_unit_zero (S := S256x2048) _ hz2, View.readCov_unit_zero (S := S1x2048) _ hz2]

end Cert.KernelIdeal.R0

end
-- ==== Proof.R0Data.lean ====
import proofs.«409522_j46737834115089_3_alg».proof.Proof.Gen.KernelIdeal.Launch
import proofs.«409522_j46737834115089_3_alg».proof.Proof.Gen.KernelIdeal.Skeleton
import proofs.«409522_j46737834115089_3_alg».proof.Proof.Gen.KernelIdeal.Points
import proofs.«409522_j46737834115089_3_alg».proof.Proof.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: proof data and body obligation

Window 0 is the tile of `H`, window 1 the tile of `X` (both fetched at every point); windows 2 and 3 are the two
results, one block per core, written back at the core's last tile only.  Between points the body keeps two
accumulators in scratch memory.  `accM t` and `accD t` say what they hold after the points below `t`: a core's
first tile starts from the zero fills, every tile adds its contribution. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregate accumulator after the points below `t`. -/
def accM (c : Dev nD) : ℕ → Vec F S256x2048 .f32
  | 0 => k0_pay1
  | t + 1 => if h : t < cfg0.N then k0_pay3 (iblk0 V c 0 ⟨t, h⟩) (iblk0 V c 1 ⟨t, h⟩) (if t % 8 = 0 then k0_pay1 else accM c t) else accM c t

/-- The degree accumulator after the points below `t`. -/
def accD (c : Dev nD) : ℕ → Vec F S1x2048 .f32
  | 0 => k0_pay2
  | t + 1 => if h : t < cfg0.N then k0_pay4 (iblk0 V c 0 ⟨t, h⟩) (if t % 8 = 0 then k0_pay2 else accD c t) else accD c t

theorem accM_succ (c : Dev nD) (t : Fin cfg0.N) :
    accM V c (t.val + 1) = k0_pay3 (iblk0 V c 0 t) (iblk0 V c 1 t) (if t.val % 8 = 0 then k0_pay1 else accM V c t.val) := by
  rw [accM, dif_pos t.isLt]
theorem accD_succ (c : Dev nD) (t : Fin cfg0.N) :
    accD V c (t.val + 1) = k0_pay4 (iblk0 V c 0 t) (if t.val % 8 = 0 then k0_pay2 else accD V c t.val) := by
  rw [accD, dif_pos t.isLt]

/-- The two scratch accumulators as whole memrefs. -/
abbrev scM : Memref sig .tc .vmem S256x2048 .f32 := Memref.whole cc0_scratch0
abbrev scD : Memref sig .tc .vmem S1x2048 .f32 := Memref.whole cc0_scratch1

/-- The scoped buffers the first launch neither stages nor uses: the second launch's staging buffers, at anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The scoped buffers no window of the first launch stages: the two accumulators and the rest. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ (∃ d, owns (c : Thread nD τ) scD fullShare d) ∗ rest0 (F := F) c) := by
  rw [scopedRest0_eq]; unfold rest0; simp only [scM, scD, owns_whole]; try rfl

/-- The invariant before point `t`: each accumulator at what the points of its core's run so far left (nothing is
    claimed where a core's run begins: the first tile overwrites it), the rest of the scoped memory and the generator
    register untouched. -/
def Φ0 (c : Dev nD) (t : Fin (cfg0.N + 1)) : sProp 𝕄 :=
  iprop((∃ a0, ⌜t.val % 8 ≠ 0 → a0 = accM V c t.val⌝ ∗ owns (c : Thread nD τ) scM fullShare a0)
    ∗ (∃ a1, ⌜t.val % 8 ≠ 0 → a1 = accD V c t.val⌝ ∗ owns (c : Thread nD τ) scD fullShare a1)
    ∗ rest0 (F := F) c ∗ ∃ r, prngReg c r)

/-- The proof data of the first launch on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay5 (accM V c (t.val + 1))
    | ⟨3, _⟩ => k0_pay6 (accD V c (t.val + 1))
  Φ t := Φ0 V c t
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay5 (accM V c (t.val + 1)) := by dsimp only [dat0]
theorem after0_3 (c : Dev nD) (t : Fin cfg0.N) : (dat0 V c).after 3 t = k0_pay6 (accD V c (t.val + 1)) := by dsimp only [dat0]

/-- Each input's current staging buffer holds its block at every point (both are fetched at every point). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Where the result windows are idle: everywhere but a core's last tile; and they are written back there only. -/
theorem idle0_2 : ∀ t : Fin cfg0.N, cfg0.idle 2 (grid0.coords t) = !decide (t.val % 8 = 7) := by decide +kernel
theorem idle0_3 : ∀ t : Fin cfg0.N, cfg0.idle 3 (grid0.coords t) = !decide (t.val % 8 = 7) := by decide +kernel
theorem flushB0_2 : ∀ t : Fin cfg0.N, (cfg0.win 2).flush t = decide (t.val % 8 = 7) := by decide +kernel
theorem flushB0_3 : ∀ t : Fin cfg0.N, (cfg0.win 3).flush t = decide (t.val % 8 = 7) := by decide +kernel

/-! ## The body obligation -/

/-- What the body leaves in the inputs' buffers: their blocks (an input is never idle). -/
theorem leaves0_0 (c : Dev nD) (t : Fin cfg0.N) : (dat0 V c).leavesExact 0 t = owns (c : Thread nD τ) (st0_0 t) fullShare ((dat0 V c).after 0 t) := rfl
theorem leaves0_1 (c : Dev nD) (t : Fin cfg0.N) : (dat0 V c).leavesExact 1 t = owns (c : Thread nD τ) (st0_1 t) fullShare ((dat0 V c).after 1 t) := rfl
/-- Off a core's last tile the result buffers are handed back as found; -/
theorem leaves0_2_idle (c : Dev nD) (t : Fin cfg0.N) (h7 : t.val % 8 ≠ 7) :
    (dat0 V c).leavesExact 2 t = iprop(∃ d, owns (c : Thread nD τ) (st0_2 t) fullShare ((dat0 V c).before 2 t d)) :=
  Dat.leavesExact_idle _ 2 t (by rw [idle0_2 t, decide_eq_false h7]; rfl) (by rw [flushB0_2 t, decide_eq_false h7])
theorem leaves0_3_idle (c : Dev nD) (t : Fin cfg0.N) (h7 : t.val % 8 ≠ 7) :
    (dat0 V c).leavesExact 3 t = iprop(∃ d, owns (c : Thread nD τ) (st0_3 t) fullShare ((dat0 V c).before 3 t d)) :=
  Dat.leavesExact_idle _ 3 t (by rw [idle0_3 t, decide_eq_false h7]; rfl) (by rw [flushB0_3 t, decide_eq_false h7])
/-- on it they hold the copies of the accumulators. -/
theorem leaves0_2_live (c : Dev nD) (t : Fin cfg0.N) (h7 : t.val % 8 = 7) :
    (dat0 V c).leavesExact 2 t = owns (c : Thread nD τ) (st0_2 t) fullShare ((dat0 V c).after 2 t) := by
  unfold Dat.leavesExact; rw [idle0_2 t, decide_eq_true h7]; rfl
theorem leaves0_3_live (c : Dev nD) (t : Fin cfg0.N) (h7 : t.val % 8 = 7) :
    (dat0 V c).leavesExact 3 t = owns (c : Thread nD τ) (st0_3 t) fullShare ((dat0 V c).after 3 t) := by
  unfold Dat.leavesExact; rw [idle0_3 t, decide_eq_true h7]; rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 1000000 in
/-- The body at any point, by the kind of the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [leaves0_0, leaves0_1, after0_0, after0_1,
    show (dat0 V c).Φ t.succ = Φ0 V c t.succ from rfl, show (dat0 V c).Φ t.castSucc = Φ0 V c t.castSucc from rfl,
    show (dat0 V c).owesAt () t.succ = (dat0 V c).owesAt () t.castSucc from rfl]
  unfold Φ0
  have hs : (t.succ : Fin (cfg0.N + 1)).val = t.val + 1 := rfl
  have hcs : (t.castSucc : Fin (cfg0.N + 1)).val = t.val := rfl
  rw [hs, hcs]
  by_cases h0 : t.val % 8 = 0
  · -- a core's first tile
    have h7 : t.val % 8 ≠ 7 := by omega
    have hc0 : cond0_0 (grid0.coords t) := (hcond0_0 t).mpr h0
    have hc1 : ¬cond0_1 (grid0.coords t) := fun h => h7 ((hcond0_1 t).mp h)
    rw [leaves0_2_idle V c t h7, leaves0_3_idle V c t h7]
    iintro ⟨⟨⟨%a0, -, HM⟩, ⟨%a1, -, HD⟩, Hrest, Hp⟩, Ho, ⟨%d0, H0⟩, ⟨%d1, H1⟩, ⟨%d2, H2⟩, ⟨%d3, H3⟩⟩
    iapply (sound_first c (grid0.coords t) _ _ _ _ _ _ _ _ scM (Memref.isWhole_whole _) scD (Memref.isWhole_whole _)
      (iblk0 V c 0 t) (iblk0 V c 1 t) Set.univ _ hc0 hc1 ((dat0 V c).before 2 t d2) ((dat0 V c).before 3 t d3))
    isplitl [H0]; · iexact H0
    isplitl [H1]; · iexact H1
    isplitl [H2]; · iexact H2
    isplitl [H3]; · iexact H3
    isplitl [HM]; · iexists _; iexact HM
    isplitl [HD]; · iexists _; iexact HD
    iintro ⟨H0, H1, H2, H3, HM, HD⟩
    isplitl [HM HD Hrest Hp]
    · isplitl [HM]
      · iexists _; isplitr; swap; · iexact HM
        ipureintro; intro _; rw [accM_succ, if_pos h0]
      isplitl [HD]
      · iexists _; isplitr; swap; · iexact HD
        ipureintro; intro _; rw [accD_succ, if_pos h0]
      isplitl [Hrest]; · iexact Hrest
      iexact Hp
    isplitl [Ho]; · iexact Ho
    isplitl [H0]; · iexact H0
    isplitl [H1]; · iexact H1
    isplitl [H2]; · iexists _; iexact H2
    iexists _; iexact H3
  · by_cases h7 : t.val % 8 = 7
    · -- a core's last tile
      have hc0 : ¬cond0_0 (grid0.coords t) := fun h => h0 ((hcond0_0 t).mp h)
      have hc1 : cond0_1 (grid0.coords t) := (hcond0_1 t).mpr h7
      rw [leaves0_2_live V c t h7, leaves0_3_live V c t h7, after0_2, after0_3]
      iintro ⟨⟨⟨%a0, %ha0, HM⟩, ⟨%a1, %ha1, HD⟩, Hrest, Hp⟩, Ho, ⟨%d0, H0⟩, ⟨%d1, H1⟩, ⟨%d2, H2⟩, ⟨%d3, H3⟩⟩
      obtain rfl := ha0 h0; obtain rfl := ha1 h0
      iapply (sound_last c (grid0.coords t) _ _ _ _ _ _ _ _ scM (Memref.isWhole_whole _) scD (Memref.isWhole_whole _)
        (iblk0 V c 0 t) (iblk0 V c 1 t) Set.univ _ hc0 hc1 (accM V c t.val) (accD V c t.val))
      isplitl [H0]; · iexact H0
      isplitl [H1]; · iexact H1
      isplitl [H2]; · iexists _; iexact H2
      isplitl [H3]; · iexists _; iexact H3
      isplitl [HM]; · iexact HM
      isplitl [HD]; · iexact HD
      iintro ⟨H0, H1, H2, H3, HM, HD⟩
      isplitl [HM HD Hrest Hp]
      · isplitl [HM]
        · iexists _; isplitr; swap; · iexact HM
          ipureintro; intro _; rw [accM_succ, if_neg h0]
        isplitl [HD]
        · iexists _; isplitr; swap; · iexact HD
          ipureintro; intro _; rw [accD_succ, if_neg h0]
        isplitl [Hrest]; · iexact Hrest
        iexact Hp
      isplitl [Ho]; · iexact Ho
      isplitl [H0]; · iexact H0
      isplitl [H1]; · iexact H1
      isplitl [H2]
      · rw [accM_succ, if_neg h0]; iexact H2
      rw [accD_succ, if_neg h0]; iexact H3
    · -- a middle tile
      have hc0 : ¬cond0_0 (grid0.coords t) := fun h => h0 ((hcond0_0 t).mp h)
      have hc1 : ¬cond0_1 (grid0.coords t) := fun h => h7 ((hcond0_1 t).mp h)
      rw [leaves0_2_idle V c t h7, leaves0_3_idle V c t h7]
      iintro ⟨⟨⟨%a0, %ha0, HM⟩, ⟨%a1, %ha1, HD⟩, Hrest, Hp⟩, Ho, ⟨%d0, H0⟩, ⟨%d1, H1⟩, ⟨%d2, H2⟩, ⟨%d3, H3⟩⟩
      obtain rfl := ha0 h0; obtain rfl := ha1 h0
      iapply (sound_mid c (grid0.coords t) _ _ _ _ _ _ _ _ scM (Memref.isWhole_whole _) scD (Memref.isWhole_whole _)
        (iblk0 V c 0 t) (iblk0 V c 1 t) Set.univ _ hc0 hc1 ((dat0 V c).before 2 t d2) ((dat0 V c).before 3 t d3) (accM V c t.val) (accD V c t.val))
      isplitl [H0]; · iexact H0
      isplitl [H1]; · iexact H1
      isplitl [H2]; · iexact H2
      isplitl [H3]; · iexact H3
      isplitl [HM]; · iexact HM
      isplitl [HD]; · iexact HD
      iintro ⟨H0, H1, H2, H3, HM, HD⟩
      isplitl [HM HD Hrest Hp]
      · isplitl [HM]
        · iexists _; isplitr; swap; · iexact HM
          ipureintro; intro _; rw [accM_succ, if_neg h0]
        isplitl [HD]
        · iexists _; isplitr; swap; · iexact HD
          ipureintro; intro _; rw [accD_succ, if_neg h0]
        isplitl [Hrest]; · iexact Hrest
        iexact Hp
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.R1.lean ====
import proofs.«409522_j46737834115089_3_alg».proof.Proof.Gen.KernelIdeal.Launch
import proofs.«409522_j46737834115089_3_alg».proof.Proof.Gen.KernelIdeal.Skeleton
import proofs.«409522_j46737834115089_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second pallas_call as pipeline proof data

The output kernel runs on a grid of sixteen points. At each point it reads a tile `H` of
`512 × 2048` values, the whole matrices `M` (`256 × 2048`), `W` (`256 × 256`) and the row `b`
(`1 × 256`), and writes one tile of `512 × 256` values. This module says, for any contents `V` of
the core's buffers on entry, what every window's staging buffer holds before and after the body
at each point, and proves that the body turns the one into the other.

Everything is stated for an arbitrary float instance, so that it can be read both over the
idealised numbers and over machine words.
-/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`: the part of the window's array, at the contents `V`
    found on entry, that the window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches: each is the whole of its staging buffer -/

abbrev rH : Rect S512x2048 := Rect.unit (s := S512x2048) ![0, 0] S512x2048.size inb_S512x2048_S512x2048_0_0
abbrev rM : Rect S256x2048 := Rect.unit (s := S256x2048) ![0, 0] S256x2048.size inb_S256x2048_S256x2048_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rO : Rect S512x256 := Rect.unit (s := S512x256) ![0, 0] S512x256.size inb_S512x256_S512x256_0_0

/-! ## The value the body leaves in the output tile -/

/-- From the four input blocks, the contents of the output staging buffer once the body has run: a
    single store of the kernel's payload, evaluated on the loaded blocks, over the whole tile. -/
def out1_4 (x0 : Vec F S512x2048 .f32) (x1 : Vec F S256x2048 .f32) (x2 : Vec F S256x256 .f32) (x3 : Vec F S1x256 .f32) : Vec F S512x256 .f32 :=
  View.canon [⟨rO, k1_pay1 (View.ld x0 rH) (View.ld x1 rM) (View.ld x2 rW) (View.ld x3 rB)⟩]

/-- The one stored rectangle is the whole tile, so every index of the tile lies in it. -/
theorem cover1_4 (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body on whole staging buffers -/

set_option maxHeartbeats 1000000 in
/-- Run on five whole staging buffers, the first four holding `x0 … x3` and the fifth holding
    anything, the kernel function ends with the four inputs unchanged and the fifth buffer at
    `out1_4 x0 x1 x2 x3`. The function is a sequence of five loads and one store; the load of the
    output buffer reads whatever is there and its value is not used. -/
theorem sound_kernel1 (c : Dev nD) (E : Set ℕ) (i : grid1.Coords)
    (arg1 : Memref sig .tc .vmem S512x2048 .f32) (harg1 : arg1.IsWhole)
    (arg2 : Memref sig .tc .vmem S256x2048 .f32) (harg2 : arg2.IsWhole)
    (arg3 : Memref sig .tc .vmem S256x256 .f32) (harg3 : arg3.IsWhole)
    (arg4 : Memref sig .tc .vmem S1x256 .f32) (harg4 : arg4.IsWhole)
    (arg5 : Memref sig .tc .vmem S512x256 .f32) (harg5 : arg5.IsWhole)
    (x0 : Vec F S512x2048 .f32) (x1 : Vec F S256x2048 .f32) (x2 : Vec F S256x256 .f32) (x3 : Vec F S1x256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__output_kernel i arg1 harg1 arg2 harg2 arg3 harg3 arg4 harg4 arg5 harg5) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the pipeline -/

/-- The proof data on core `c`. The arrays are as found on entry. After the body at point `t` each
    input's staging buffer still holds that input's block, and the output's holds `out1_4` of the
    four blocks. The invariant is the library's (the untouched rest of the scoped memory); all
    shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ### What an input's buffer holds when the body starts

An input's buffer is refilled only when its block index moves. The tile `H` moves at every point.
`M`, `W` and `b` have a constant index: they are brought in once, at the first point, and since
the body leaves them in place the buffer holds the same block — which is the block of every
point — ever after. Either way the buffer holds the block of the current point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

/-- What the body is given at point `t`: the invariant, the core's tally, and each window's
    current staging buffer at whatever the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At every point the four input buffers hold their blocks, so the kernel's triple applies with
    those blocks; the invariant and the tally are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation on the body, at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.Run.lean ====
import proofs.«409522_j46737834115089_3_alg».proof.Proof.Gen.KernelIdeal.Launch
import proofs.«409522_j46737834115089_3_alg».proof.Proof.Gen.KernelIdeal.Skeleton
import proofs.«409522_j46737834115089_3_alg».proof.Proof.Gen.KernelIdeal.Points
import proofs.«409522_j46737834115089_3_alg».proof.Proof.R0Data
import proofs.«409522_j46737834115089_3_alg».proof.Proof.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

@main is the first launch, ten host operations, the second launch.  The buffer contents at each boundary are a fold
from the launch memory: after a launch its windows' arrays hold what its write-backs left and every other buffer is as
it was; after the host operations each holds the operations' result.  Every launch is entered from "all unscoped
buffers at the boundary's contents" and left at the next boundary's. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first launch: its arrays at what its write-backs leave, every other buffer as entered. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second launch's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second launch. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every launch's proof data at its entry contents. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- The first launch: entered from the launch contents, left at `W1`.  The generator register goes into the invariant
    and comes back; the two accumulators are found at anything and given back at anything. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Ix := Unit) (Name := ℕ) (U := UR sig nD τ) (Lvl := ℕ) (Val := Elt F) (Pipeline.pin (pcfgs (F := F)) adm 0).spec c : sProp 𝕄) = _ :=
      R0.scoped0_eq (F := F) c
    rw [show (pdats m ρ 0 c).Φ 0 = R0.Φ0 (V0 m ρ) c 0 from rfl, hs]; unfold R0.Φ0
    iintro ⟨Hp, -, ⟨%d0, HM⟩, ⟨%d1, HD⟩, Hr⟩
    isplitl [HM]
    · iexists _; isplitr; swap; · iexact HM
      ipureintro; intro h; exact absurd rfl h
    isplitl [HD]
    · iexists _; isplitr; swap; · iexact HD
      ipureintro; intro h; exact absurd rfl h
    isplitl [Hr]; · iexact Hr
    iexact Hp
  hout c := by
    have hs : (Pipeline.scopedRest (Ix := Unit) (Name := ℕ) (U := UR sig nD τ) (Lvl := ℕ) (Val := Elt F) (Pipeline.pin (pcfgs (F := F)) adm 0).spec c : sProp 𝕄) = _ :=
      R0.scoped0_eq (F := F) c
    rw [Pipeline.ownSems0_none, show (pdats m ρ 0 c).Φ (Fin.last _) = R0.Φ0 (V0 m ρ) c (Fin.last _) from rfl, hs]; unfold R0.Φ0
    iintro ⟨⟨%a0, -, HM⟩, ⟨%a1, -, HD⟩, Hr, Hp⟩
    isplitl [Hp]; · iexact Hp
    isplitr; · iempintro
    isplitl [HM]; · iexists _; iexact HM
    isplitl [HD]; · iexists _; iexact HD
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from `W2`, left at `W3`; its invariant is the scoped rest and the generator register. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every final
    state has every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Run

end
-- ==== Proof.RunArgs.lean ====
import proofs.«409522_j46737834115089_3_alg».proof.Proof.Run
import proofs.«409522_j46737834115089_3_alg».proof.Proof.Gen.KernelIdeal.Regions

noncomputable section

namespace Cert.KernelIdeal.RunArgs

open Cert.KernelIdeal Cert.KernelIdeal.Gen
open Idealize.ShloMosaic Idealize.ShloMosaic.TcCoe
open Idealize.SL Idealize.SL.Sem

variable {F : FTy → Type} [FloatOps F]

/-! # The arguments end as launched

An argument is an input window's array of a launch, which the launch leaves as it found it, or no window's array of it,
which the launch does not touch; and no host operation between the launches writes an argument.  So the contents at
each boundary walk back to the launch memory. -/

/-- After the first launch `main_arg0` holds its launch contents. -/
theorem W1_main_arg0 (m : (ℓ : Loc nD τ sig) → Buf (Elt F) ℓ) (ρ : Dev nD → PrngReg) (c : Dev nD) :
    Run.W1 m ρ c (Proc.devRef .tc main_arg0) = m ((c : Thread nD τ).loc main_arg0) :=
  calc Run.W1 m ρ c (Proc.devRef .tc main_arg0)
    _ = Run.W0 m ρ c (Proc.devRef .tc main_arg0) := (Run.W1_arr m ρ c 1).trans (((R0.dat0 (Run.V0 m ρ) c).arrAt_in 1 rfl _).trans (R0.A_eq0 (Run.V0 m ρ) c 1))
    _ = m ((c : Thread nD τ).loc main_arg0) := rfl

/-- After the host operations `main_arg0` holds its launch contents: none of them writes it. -/
theorem W2_main_arg0 (m : (ℓ : Loc nD τ sig) → Buf (Elt F) ℓ) (ρ : Dev nD → PrngReg) (c : Dev nD) :
    Run.W2 m ρ c (Proc.devRef .tc main_arg0) = m ((c : Thread nD τ).loc main_arg0) :=
  calc Run.W2 m ρ c (Proc.devRef .tc main_arg0)
    _ = Run.W1 m ρ c (Proc.devRef .tc main_arg0) := StableHlo.after_of_writes_sub hostOps1 _ hostOps1_writes (by decide)
    _ = m ((c : Thread nD τ).loc main_arg0) := W1_main_arg0 m ρ c

/-- After the second launch `main_arg0` holds its launch contents. -/
theorem W3_main_arg0 (m : (ℓ : Loc nD τ sig) → Buf (Elt F) ℓ) (ρ : Dev nD → PrngReg) (c : Dev nD) :
    Run.W3 m ρ c (Proc.devRef .tc main_arg0) = m ((c : Thread nD τ).loc main_arg0) :=
  calc Run.W3 m ρ c (Proc.devRef .tc main_arg0)
    _ = Run.W2 m ρ c (Proc.devRef .tc main_arg0) := Run.W3_of_ne m ρ c main_arg0 (by decide)
    _ = m ((c : Thread nD τ).loc main_arg0) := W2_main_arg0 m ρ c

/-- After the first launch `main_arg1` holds its launch contents. -/
theorem W1_main_arg1 (m : (ℓ : Loc nD τ sig) → Buf (Elt F) ℓ) (ρ : Dev nD → PrngReg) (c : Dev nD) :
    Run.W1 m ρ c (Proc.devRef .tc main_arg1) = m ((c : Thread nD τ).loc main_arg1) :=
  calc Run.W1 m ρ c (Proc.devRef .tc main_arg1)
    _ = Run.W0 m ρ c (Proc.devRef .tc main_arg1) := (Run.W1_arr m ρ c 0).trans (((R0.dat0 (Run.V0 m ρ) c).arrAt_in 0 rfl _).trans (R0.A_eq0 (Run.V0 m ρ) c 0))
    _ = m ((c : Thread nD τ).loc main_arg1) := rfl

/-- After the host operations `main_arg1` holds its launch contents: none of them writes it. -/
theorem W2_main_arg1 (m : (ℓ : Loc nD τ sig) → Buf (Elt F) ℓ) (ρ : Dev nD → PrngReg) (c : Dev nD) :
    Run.W2 m ρ c (Proc.devRef .tc main_arg1) = m ((c : Thread nD τ).loc main_arg1) :=
  calc Run.W2 m ρ c (Proc.devRef .tc main_arg1)
    _ = Run.W1 m ρ c (Proc.devRef .tc main_arg1) := StableHlo.after_of_writes_sub hostOps1 _ hostOps1_writes (by decide)
    _ = m ((c : Thread nD τ).loc main_arg1) := W1_main_arg1 m ρ c

/-- After the second launch `main_arg1` holds its launch contents. -/
theorem W3_main_arg1 (m : (ℓ : Loc nD τ sig) → Buf (Elt F) ℓ) (ρ : Dev nD → PrngReg) (c : Dev nD) :
    Run.W3 m ρ c (Proc.devRef .tc main_arg1) = m ((c : Thread nD τ).loc main_arg1) :=
  calc Run.W3 m ρ c (Proc.devRef .tc main_arg1)
    _ = Run.W2 m ρ c (Proc.devRef .tc main_arg1) := (Run.W3_arr m ρ c 0).trans (((R1.dat1 (Run.V2 m ρ) c).arrAt_in 0 rfl _).trans (R1.A_eq1 (Run.V2 m ρ) c 0))
    _ = m ((c : Thread nD τ).loc main_arg1) := W2_main_arg1 m ρ c

/-- After the first launch `main_arg2` holds its launch contents. -/
theorem W1_main_arg2 (m : (ℓ : Loc nD τ sig) → Buf (Elt F) ℓ) (ρ : Dev nD → PrngReg) (c : Dev nD) :
    Run.W1 m ρ c (Proc.devRef .tc main_arg2) = m ((c : Thread nD τ).loc main_arg2) :=
  calc Run.W1 m ρ c (Proc.devRef .tc main_arg2)
    _ = Run.W0 m ρ c (Proc.devRef .tc main_arg2) := Run.W1_of_ne m ρ c main_arg2 (by decide)
    _ = m ((c : Thread nD τ).loc main_arg2) := rfl

/-- After the host operations `main_arg2` holds its launch contents: none of them writes it. -/
theorem W2_main_arg2 (m : (ℓ : Loc nD τ sig) → Buf (Elt F) ℓ) (ρ : Dev nD → PrngReg) (c : Dev nD) :
    Run.W2 m ρ c (Proc.devRef .tc main_arg2) = m ((c : Thread nD τ).loc main_arg2) :=
  calc Run.W2 m ρ c (Proc.devRef .tc main_arg2)
    _ = Run.W1 m ρ c (Proc.devRef .tc main_arg2) := StableHlo.after_of_writes_sub hostOps1 _ hostOps1_writes (by decide)
    _ = m ((c : Thread nD τ).loc main_arg2) := W1_main_arg2 m ρ c

/-- After the second launch `main_arg2` holds its launch contents. -/
theorem W3_main_arg2 (m : (ℓ : Loc nD τ sig) → Buf (Elt F) ℓ) (ρ : Dev nD → PrngReg) (c : Dev nD) :
    Run.W3 m ρ c (Proc.devRef .tc main_arg2) = m ((c : Thread nD τ).loc main_arg2) :=
  calc Run.W3 m ρ c (Proc.devRef .tc main_arg2)
    _ = Run.W2 m ρ c (Proc.devRef .tc main_arg2) := (Run.W3_arr m ρ c 2).trans (((R1.dat1 (Run.V2 m ρ) c).arrAt_in 2 rfl _).trans (R1.A_eq1 (Run.V2 m ρ) c 2))
    _ = m ((c : Thread nD τ).loc main_arg2) := W2_main_arg2 m ρ c

/-- After the first launch `main_arg3` holds its launch contents. -/
theorem W1_main_arg3 (m : (ℓ : Loc nD τ sig) → Buf (Elt F) ℓ) (ρ : Dev nD → PrngReg) (c : Dev nD) :
    Run.W1 m ρ c (Proc.devRef .tc main_arg3) = m ((c : Thread nD τ).loc main_arg3) :=
  calc Run.W1 m ρ c (Proc.devRef .tc main_arg3)
    _ = Run.W0 m ρ c (Proc.devRef .tc main_arg3) := Run.W1_of_ne m ρ c main_arg3 (by decide)
    _ = m ((c : Thread nD τ).loc main_arg3) := rfl

/-- After the host operations `main_arg3` holds its launch contents: none of them writes it. -/
theorem W2_main_arg3 (m : (ℓ : Loc nD τ sig) → Buf (Elt F) ℓ) (ρ : Dev nD → PrngReg) (c : Dev nD) :
    Run.W2 m ρ c (Proc.devRef .tc main_arg3) = m ((c : Thread nD τ).loc main_arg3) :=
  calc Run.W2 m ρ c (Proc.devRef .tc main_arg3)
    _ = Run.W1 m ρ c (Proc.devRef .tc main_arg3) := StableHlo.after_of_writes_sub hostOps1 _ hostOps1_writes (by decide)
    _ = m ((c : Thread nD τ).loc main_arg3) := W1_main_arg3 m ρ c

/-- After the second launch `main_arg3` holds its launch contents. -/
theorem W3_main_arg3 (m : (ℓ : Loc nD τ sig) → Buf (Elt F) ℓ) (ρ : Dev nD → PrngReg) (c : Dev nD) :
    Run.W3 m ρ c (Proc.devRef .tc main_arg3) = m ((c : Thread nD τ).loc main_arg3) :=
  calc Run.W3 m ρ c (Proc.devRef .tc main_arg3)
    _ = Run.W2 m ρ c (Proc.devRef .tc main_arg3) := Run.W3_of_ne m ρ c main_arg3 (by decide)
    _ = m ((c : Thread nD τ).loc main_arg3) := W2_main_arg3 m ρ c

end Cert.KernelIdeal.RunArgs

end
-- ==== Proof.Payloads.lean ====
import proofs.«409522_j46737834115089_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-- The first store of the first step writes the zero splat: every element is `0`. -/
theorem k0_pay1_apply (j : S256x2048.Idx) : k0_pay1 (F := Ideal) j = 0 := by
  unfold k0_pay1
  rw [shapeCast_self]
  exact Ideal.ofBits_zero_f32

/-- Likewise the zero row. -/
theorem k0_pay2_apply (j : S1x2048.Idx) : k0_pay2 (F := Ideal) j = 0 := by
  unfold k0_pay2
  rw [shapeCast_self]
  exact Ideal.ofBits_zero_f32

/-- The accumulator tile copied out under a leading unit axis. -/
theorem k0_pay5_apply (v23 : Vec Ideal S256x2048 .f32) (f : Fin 256) (e : Fin 2048) :
    k0_pay5 v23 (ix3 0 f e) = v23 (ix2 f e) := by
  unfold k0_pay5
  exact shapeCast_ab_1ab_apply v23 _ 0 f e

/-- The accumulator row copied out under a leading unit axis. -/
theorem k0_pay6_apply (v27 : Vec Ideal S1x2048 .f32) (e : Fin 2048) :
    k0_pay6 v27 (ix3 0 0 e) = v27 (ix2 0 e) := by
  unfold k0_pay6
  exact shapeCast_ab_1ab_apply v27 _ 0 0 e

/-- A column sum over the 512 rows of a tile, read at a lane. -/
theorem colsum_apply (x : FVec Ideal S512x2048 .f32) (hφ : FKind.Formats .f32)
    (hacc : (0x00000000#32 : BitVec 32) = 0x00000000#32) (e : Fin 2048) :
    multiReduction (F := Ideal) .add [0] S2048 x 0x00000000#32 reduces_S512x2048_S2048 hφ hacc (ix1 e)
      = ∑ r : Fin 512, x (ix2 r e) := by
  refine (Ideal.multiReduction_add_single x 0x00000000#32 reduces_S512x2048_S2048 hφ hacc (ix1 e)).trans ?_
  refine Finset.sum_congr rfl fun r _ => congrArg x ?_
  funext a
  match a with
  | ⟨0, _⟩ => rfl
  | ⟨1, _⟩ => rfl

/-- The running column sum: the accumulator row plus the tile's column sums. -/
theorem k0_pay4_apply (v3 : Vec Ideal S512x2048 .f32) (v13 : Vec Ideal S1x2048 .f32) (e : Fin 2048) :
    k0_pay4 v3 v13 (ix2 0 e) = v13 (ix2 0 e) + ∑ r : Fin 512, v3 (ix2 r e) := by
  unfold k0_pay4
  rw [shapeCast_self, addf_apply]
  refine congrArg (v13 (ix2 0 e) + ·) ?_
  refine (shapeCast_a_1a_apply _ shapeCasts_S2048_S1x2048 0 e).trans ?_
  exact colsum_apply v3 _ _ e

/-! The first kernel's contraction: axis 0 of both operands. -/

theorem lhs_k0_0 (i : S256x2048.Idx) (q : dot_S512x256_S512x2048_S256x2048_0_0_1_1_n_n.contr.Idx) :
    (dot_S512x256_S512x2048_S256x2048_0_0_1_1_n_n.lhsIdx i q 0).val = (q ⟨0, by decide⟩).val :=
  dot_S512x256_S512x2048_S256x2048_0_0_1_1_n_n.lhsIdx_val_of_single rfl i q
theorem lhs_k0_1 (i : S256x2048.Idx) (q : dot_S512x256_S512x2048_S256x2048_0_0_1_1_n_n.contr.Idx) :
    (dot_S512x256_S512x2048_S256x2048_0_0_1_1_n_n.lhsIdx i q 1).val = (i 0).val := by
  unfold DotDims.lhsIdx
  rw [dif_neg (show ¬(1 : Fin S512x256.rank) ∈ dot_S512x256_S512x2048_S256x2048_0_0_1_1_n_n.lhsBatch by decide), dif_pos (show (1 : Fin S512x256.rank) ∈ dot_S512x256_S512x2048_S256x2048_0_0_1_1_n_n.lhsNonContracting by decide)]
  rfl
theorem rhs_k0_0 (i : S256x2048.Idx) (q : dot_S512x256_S512x2048_S256x2048_0_0_1_1_n_n.contr.Idx) :
    (dot_S512x256_S512x2048_S256x2048_0_0_1_1_n_n.rhsIdx i q 0).val = (q ⟨0, by decide⟩).val :=
  dot_S512x256_S512x2048_S256x2048_0_0_1_1_n_n.rhsIdx_val_of_single rfl i q
theorem rhs_k0_1 (i : S256x2048.Idx) (q : dot_S512x256_S512x2048_S256x2048_0_0_1_1_n_n.contr.Idx) :
    (dot_S512x256_S512x2048_S256x2048_0_0_1_1_n_n.rhsIdx i q 1).val = (i 1).val := by
  unfold DotDims.rhsIdx
  rw [dif_neg (show ¬(1 : Fin S512x2048.rank) ∈ dot_S512x256_S512x2048_S256x2048_0_0_1_1_n_n.rhsBatch by decide), dif_pos (show (1 : Fin S512x2048.rank) ∈ dot_S512x256_S512x2048_S256x2048_0_0_1_1_n_n.rhsNonContracting by decide)]
  rfl

/-- The product into a zero accumulator, read at `(f, e)`: the sum over the 512 rows of the two tiles' entries. -/
theorem matmul_k0_apply (a : FVec Ideal S512x256 .bf16) (b : FVec Ideal S512x2048 .bf16) (f : Fin 256) (e : Fin 2048) :
    FloatOps.matmul dot_S512x256_S512x2048_S256x2048_0_0_1_1_n_n none a b (constant (F := Ideal) S256x2048 .f32 0x00000000#32) (ix2 f e)
      = ∑ r : Fin 512, a (ix2 r f) * b (ix2 r e) := by
  rw [Ideal.matmul_constant_zero_apply, ← Equiv.sum_comp (ValueIdx.contrEquiv1 dot_S512x256_S512x2048_S256x2048_0_0_1_1_n_n 512 rfl rfl).symm]
  refine Finset.sum_congr rfl fun k _ => ?_
  have hk := ValueIdx.contrEquiv1_symm_val dot_S512x256_S512x2048_S256x2048_0_0_1_1_n_n 512 rfl rfl k
  have el : dot_S512x256_S512x2048_S256x2048_0_0_1_1_n_n.lhsIdx (ix2 f e) ((ValueIdx.contrEquiv1 dot_S512x256_S512x2048_S256x2048_0_0_1_1_n_n 512 rfl rfl).symm k) = ix2 k f := funext fun x => Fin.ext (by
    match x with
    | ⟨0, _⟩ => exact (lhs_k0_0 _ _).trans hk
    | ⟨1, _⟩ => exact lhs_k0_1 _ _)
  have er : dot_S512x256_S512x2048_S256x2048_0_0_1_1_n_n.rhsIdx (ix2 f e) ((ValueIdx.contrEquiv1 dot_S512x256_S512x2048_S256x2048_0_0_1_1_n_n 512 rfl rfl).symm k) = ix2 k e := funext fun x => Fin.ext (by
    match x with
    | ⟨0, _⟩ => exact (rhs_k0_0 _ _).trans hk
    | ⟨1, _⟩ => exact rhs_k0_1 _ _)
  rw [el, er]

/-- The running product: the accumulator tile plus the contraction over the step's 512 rows. -/
theorem k0_pay3_apply (v3 : Vec Ideal S512x2048 .f32) (v4 : Vec Ideal S512x256 .f32) (v8 : Vec Ideal S256x2048 .f32)
    (f : Fin 256) (e : Fin 2048) :
    k0_pay3 v3 v4 v8 (ix2 f e) = v8 (ix2 f e) + ∑ r : Fin 512, v4 (ix2 r f) * v3 (ix2 r e) := by
  unfold k0_pay3
  rw [shapeCast_self, addf_apply]
  refine congrArg (v8 (ix2 f e) + ·) ?_
  refine (matmul_k0_apply _ _ f e).trans ?_
  rfl

/-! The second kernel's contractions: axis 1 of both operands. -/

theorem lhs_k1a_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_k1a_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_k1a_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_k1a_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- The first product of the second kernel at `(r, f)`: the sum over the 2048 lanes of the two tiles' entries. -/
theorem matmul_k1a_apply (a : FVec Ideal S512x2048 .bf16) (b : FVec Ideal S256x2048 .bf16) (r : Fin 512) (f : Fin 256) :
    FloatOps.matmul dot_S512x2048_S256x2048_S512x256_1_1_0_0_n_n none a b (constant (F := Ideal) S512x256 .f32 0x00000000#32) (ix2 r f)
      = ∑ e : Fin 2048, a (ix2 r e) * b (ix2 f e) := by
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 r f) ((ValueIdx.contrEquiv1 dot_S512x2048_S256x2048_S512x256_1_1_0_0_n_n 2048 rfl rfl).symm k) = ix2 r k := funext fun x => Fin.ext (by
    match x with
    | ⟨0, _⟩ => exact lhs_k1a_0 _ _
    | ⟨1, _⟩ => exact (lhs_k1a_1 _ _).trans hk)
  have er : dot_S512x2048_S256x2048_S512x256_1_1_0_0_n_n.rhsIdx (ix2 r f) ((ValueIdx.contrEquiv1 dot_S512x2048_S256x2048_S512x256_1_1_0_0_n_n 2048 rfl rfl).symm k) = ix2 f k := funext fun x => Fin.ext (by
    match x with
    | ⟨0, _⟩ => exact rhs_k1a_0 _ _
    | ⟨1, _⟩ => exact (rhs_k1a_1 _ _).trans hk)
  rw [el, er]

theorem lhs_k1b_0 (i : S512x256.Idx) (q : dot_S512x256_S256x256_S512x256_1_1_0_0_n_n.contr.Idx) :
    (dot_S512x256_S256x256_S512x256_1_1_0_0_n_n.lhsIdx i q 0).val = (i 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
theorem lhs_k1b_1 (i : S512x256.Idx) (q : dot_S512x256_S256x256_S512x256_1_1_0_0_n_n.contr.Idx) :
    (dot_S512x256_S256x256_S512x256_1_1_0_0_n_n.lhsIdx i q 1).val = (q ⟨0, by decide⟩).val :=
  dot_S512x256_S256x256_S512x256_1_1_0_0_n_n.lhsIdx_val_of_single rfl i q
theorem rhs_k1b_0 (i : S512x256.Idx) (q : dot_S512x256_S256x256_S512x256_1_1_0_0_n_n.contr.Idx) :
    (dot_S512x256_S256x256_S512x256_1_1_0_0_n_n.rhsIdx i q 0).val = (i 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl
theorem rhs_k1b_1 (i : S512x256.Idx) (q : dot_S512x256_S256x256_S512x256_1_1_0_0_n_n.contr.Idx) :
    (dot_S512x256_S256x256_S512x256_1_1_0_0_n_n.rhsIdx i q 1).val = (q ⟨0, by decide⟩).val :=
  dot_S512x256_S256x256_S512x256_1_1_0_0_n_n.rhsIdx_val_of_single rfl i q

/-- The second product of the second kernel at `(r, o)`: the sum over the 256 features. -/
theorem matmul_k1b_apply (a : FVec Ideal S512x256 .bf16) (b : FVec Ideal S256x256 .bf16) (r : Fin 512) (o : Fin 256) :
    FloatOps.matmul dot_S512x256_S256x256_S512x256_1_1_0_0_n_n none a b (constant (F := Ideal) S512x256 .f32 0x00000000#32) (ix2 r o)
      = ∑ f : Fin 256, a (ix2 r f) * b (ix2 o f) := by
  rw [Ideal.matmul_constant_zero_apply, ← Equiv.sum_comp (ValueIdx.contrEquiv1 dot_S512x256_S256x256_S512x256_1_1_0_0_n_n 256 rfl rfl).symm]
  refine Finset.sum_congr rfl fun k _ => ?_
  have hk := ValueIdx.contrEquiv1_symm_val dot_S512x256_S256x256_S512x256_1_1_0_0_n_n 256 rfl rfl k
  have el : dot_S512x256_S256x256_S512x256_1_1_0_0_n_n.lhsIdx (ix2 r o) ((ValueIdx.contrEquiv1 dot_S512x256_S256x256_S512x256_1_1_0_0_n_n 256 rfl rfl).symm k) = ix2 r k := funext fun x => Fin.ext (by
    match x with
    | ⟨0, _⟩ => exact lhs_k1b_0 _ _
    | ⟨1, _⟩ => exact (lhs_k1b_1 _ _).trans hk)
  have er : dot_S512x256_S256x256_S512x256_1_1_0_0_n_n.rhsIdx (ix2 r o) ((ValueIdx.contrEquiv1 dot_S512x256_S256x256_S512x256_1_1_0_0_n_n 256 rfl rfl).symm k) = ix2 o k := funext fun x => Fin.ext (by
    match x with
    | ⟨0, _⟩ => exact rhs_k1b_0 _ _
    | ⟨1, _⟩ => exact (rhs_k1b_1 _ _).trans hk)
  rw [el, er]

/-- A row sum over the 2048 lanes of a tile, read at a row. -/
theorem rowsum_apply (x : FVec Ideal S512x2048 .f32) (hφ : FKind.Formats .f32)
    (hacc : (0x00000000#32 : BitVec 32) = 0x00000000#32) (r : Fin 512) :
    multiReduction (F := Ideal) .add [1] S512 x 0x00000000#32 reduces_S512x2048_S512 hφ hacc (ix1 r)
      = ∑ e : Fin 2048, x (ix2 r e) := by
  refine (Ideal.multiReduction_add_single x 0x00000000#32 reduces_S512x2048_S512 hφ hacc (ix1 r)).trans ?_
  refine Finset.sum_congr rfl fun e _ => congrArg x ?_
  funext a
  match a with
  | ⟨0, _⟩ => rfl
  | ⟨1, _⟩ => rfl

/-- A vector of 512 entries cast to a column reads, at `(r, u)`, the entry `r`. -/
theorem shapeCast_col_apply {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column broadcast along the lanes reads, at `(r, f)`, the column's entry `r`. -/
theorem broadcastTo_col_apply {α : Type} (v : S512x1.Idx → α) (h : S512x1.Broadcasts S512x256) (r : Fin 512) (f : Fin 256) :
    broadcastTo S512x256 v h (ix2 r f) = v (ix2 r (0 : Fin 1)) := by
  refine broadcastTo_apply v h (ix2 r f) (ix2 r (0 : Fin 1)) fun ax => ?_
  match ax with
  | ⟨0, _⟩ => rfl
  | ⟨1, _⟩ => rfl

/-- The second kernel's output tile at `(r, o)`: the normalized scores times the weights, summed over the 256 features, plus the bias. -/
theorem k1_pay1_apply (v0 : Vec Ideal S512x2048 .f32) (v2 : Vec Ideal S256x2048 .f32) (v12 : Vec Ideal S256x256 .f32)
    (v15 : Vec Ideal S1x256 .f32) (r : Fin 512) (o : Fin 256) :
    k1_pay1 v0 v2 v12 v15 (ix2 r o)
      = (∑ f : Fin 256, ((∑ e : Fin 2048, v0 (ix2 r e) * v2 (ix2 f e)) * Ideal.rsqrt (∑ e : Fin 2048, v0 (ix2 r e))) * v12 (ix2 o f))
        + v15 (ix2 0 o) := by
  unfold k1_pay1
  rw [addf_apply, broadcastTo_1b_ab_apply, shapeCast_self, shapeCast_self]
  refine congrArg (· + v15 (ix2 0 o)) ?_
  refine (matmul_k1b_apply _ _ r o).trans ?_
  refine Finset.sum_congr rfl fun f _ => ?_
  rw [truncf_apply, truncf_apply, mulf_apply]
  refine congrArg (· * v12 (ix2 o f)) ?_
  rw [broadcastTo_col_apply]
  show _ * Ideal.rsqrt _ = _
  rw [shapeCast_col_apply, rowsum_apply]
  refine congrArg (· * Ideal.rsqrt (∑ e : Fin 2048, v0 (ix2 r e))) ?_
  refine (matmul_k1a_apply _ _ r f).trans ?_
  rfl

end Cert.KernelIdeal.Payloads

end
-- ==== Proof.Spec.lean ====
/-
  The hypergraph convolution as one function of its four arrays, index by index, on the extended reals.

  With `X : 8192 × 256` (node features), `H : 8192 × 2048` (incidence), `W : 256 × 256`, `b : 256`:
    * the degree of node `n` is the sum of row `n` of `H`, the degree of hyperedge `e` the sum of column `e`;
    * the hyperedge aggregate is `(∑ₙ X[n,f] · H[n,e]) · (1 / colDeg e)`;
    * the node aggregate is `(∑ₑ H[n,e] · edgeAgg f e) · rsqrt (rowDeg n)`;
    * the result is `(∑_f nodeAgg n f · W[o,f]) + b[o]`.
  Nothing here is distributed over a sum: the degree scalings are applied after each contraction, as both
  programs do, so the function is meaningful on all extended reals and no finiteness enters its definition.
-/
import Idealize.ShloMosaic.PureOps.Ideal
import Idealize.ShloMosaic.Lib.ValueIdx

noncomputable section

namespace Cert.Hyper

open Idealize.ShloMosaic Idealize.ShloMosaic.ValueIdx
open scoped BigOperators

abbrev SX : Shape := ⟨2, ![8192, 256]⟩
abbrev SH : Shape := ⟨2, ![8192, 2048]⟩
abbrev SW : Shape := ⟨2, ![256, 256]⟩
abbrev Sb : Shape := ⟨1, ![256]⟩

variable (X : SX.Idx → EReal) (H : SH.Idx → EReal) (W : SW.Idx → EReal) (b : Sb.Idx → EReal)

/-- The degree of node `n`: the sum of row `n` of the incidence matrix. -/
def rowDeg (n : Fin 8192) : EReal := ∑ e : Fin 2048, H (ix2 n e)

/-- The degree of hyperedge `e`: the sum of column `e` of the incidence matrix. -/
def colDeg (e : Fin 2048) : EReal := ∑ n : Fin 8192, H (ix2 n e)

/-- Feature `f` aggregated on hyperedge `e`, scaled by the reciprocal of the hyperedge's degree. -/
def edgeAgg (f : Fin 256) (e : Fin 2048) : EReal :=
  (∑ n : Fin 8192, X (ix2 n f) * H (ix2 n e)) * Ideal.div 1 (colDeg H e)

/-- Feature `f` aggregated back on node `n`, scaled by the reciprocal square root of the node's degree. -/
def nodeAgg (n : Fin 8192) (f : Fin 256) : EReal :=
  (∑ e : Fin 2048, H (ix2 n e) * edgeAgg X H f e) * Ideal.rsqrt (rowDeg H n)

/-- The linear layer on the node aggregate: entry `(n, o)` of the result. -/
def out (n : Fin 8192) (o : Fin 256) : EReal :=
  (∑ f : Fin 256, nodeAgg X H n f * W (ix2 o f)) + b (ix1 o)

/-- The whole result array. -/
def G : SX.Idx → EReal := fun i => out X H W b (i 0) (i 1)

theorem G_ix2 (n : Fin 8192) (o : Fin 256) : G X H W b (ix2 n o) = out X H W b n o := rfl

end Cert.Hyper

end
-- ==== Proof.Spec2.lean ====
/-
  The two halves of the computation as the two launches see them.

  The first launch walks the 8192 rows of `X` and `H` in 16 tiles of 512, eight per core: core `c`'s partial
  hyperedge aggregate is the sum over its eight tiles of the tile's contraction, and its partial hyperedge degree the
  sum over its eight tiles of the tile's column sums.  The second launch takes the incidence matrix, an aggregate
  `M : 256 × 2048` and a bias row `B : 1 × 256` and applies the node scaling and the linear layer.
-/
import proofs.«409522_j46737834115089_3_alg».proof.Proof.Spec

noncomputable section

namespace Cert.Hyper

open Idealize.ShloMosaic Idealize.ShloMosaic.ValueIdx
open scoped BigOperators

abbrev SM : Shape := ⟨2, ![256, 2048]⟩
abbrev SB : Shape := ⟨2, ![1, 256]⟩

/-- Row `r` of tile `k` of core `c`: row `(8 c + k) · 512 + r` of the arrays. -/
def tileRow (c : Fin 2) (k : Fin 8) (r : Fin 512) : Fin 8192 := ⟨(c.val * 8 + k.val) * 512 + r.val, by omega⟩

theorem tileRow_val (c : Fin 2) (k : Fin 8) (r : Fin 512) : (tileRow c k r).val = (c.val * 8 + k.val) * 512 + r.val := rfl

/-- Core `c`'s partial hyperedge aggregate: its eight tiles' contractions, summed. -/
def partAgg (X : SX.Idx → EReal) (H : SH.Idx → EReal) (c : Fin 2) (f : Fin 256) (e : Fin 2048) : EReal :=
  ∑ k : Fin 8, ∑ r : Fin 512, X (ix2 (tileRow c k r) f) * H (ix2 (tileRow c k r) e)

/-- Core `c`'s partial hyperedge degree: its eight tiles' column sums, summed. -/
def partDeg (H : SH.Idx → EReal) (c : Fin 2) (e : Fin 2048) : EReal :=
  ∑ k : Fin 8, ∑ r : Fin 512, H (ix2 (tileRow c k r) e)

/-- The two cores' partial aggregates added and scaled by the reciprocal of the added partial degrees. -/
def joinAgg (X : SX.Idx → EReal) (H : SH.Idx → EReal) (f : Fin 256) (e : Fin 2048) : EReal :=
  (0 + ∑ c : Fin 2, partAgg X H c f e) * Ideal.div 1 (0 + ∑ c : Fin 2, partDeg H c e)

/-- The second launch's function of the incidence matrix, an aggregate `M`, the weights and a bias row. -/
def linOut (H : SH.Idx → EReal) (M : SM.Idx → EReal) (W : SW.Idx → EReal) (B : SB.Idx → EReal) : SX.Idx → EReal :=
  fun i => (∑ f : Fin 256, ((∑ e : Fin 2048, H (ix2 (i 0) e) * M (ix2 f e)) * Ideal.rsqrt (∑ e : Fin 2048, H (ix2 (i 0) e)))
    * W (ix2 (i 1) f)) + B (ix2 0 (i 1))

theorem linOut_ix2 (H : SH.Idx → EReal) (M : SM.Idx → EReal) (W : SW.Idx → EReal) (B : SB.Idx → EReal) (n : Fin 8192) (o : Fin 256) :
    linOut H M W B (ix2 n o)
      = (∑ f : Fin 256, ((∑ e : Fin 2048, H (ix2 n e) * M (ix2 f e)) * Ideal.rsqrt (∑ e : Fin 2048, H (ix2 n e))) * W (ix2 o f)) + B (ix2 0 o) := rfl

end Cert.Hyper

end
-- ==== Proof.R0Value.lean ====
import proofs.«409522_j46737834115089_3_alg».proof.Proof.R0Data
import proofs.«409522_j46737834115089_3_alg».proof.Proof.Payloads
import proofs.«409522_j46737834115089_3_alg».proof.Proof.Spec2
import Idealize.ShloMosaic.Lib.Pipeline.Value
import Idealize.ShloMosaic.Lib.ValueIdx

/-!
# The two result arrays of the first launch, as functions of its operands

Over the ideal numbers. The sixteen points are two runs of eight, one run per core. Point `q` reads
rows `512 q … 512 q + 511` of `X` and of `H`. A run starts its two accumulators from zero and every
point adds its tile's contraction and its tile's column sums; the run's last point copies the
accumulators to block `q / 8` of the two result arrays. So block `c` of the first result ends at the
partial hyperedge aggregate of core `c`, block `c` of the second at its partial hyperedge degree, and
the two blocks of each cover it.
-/

noncomputable section

namespace Cert.KernelIdeal.R0Value

open Cert.KernelIdeal Cert.KernelIdeal.Gen Cert.KernelIdeal.R0 Cert.KernelIdeal.Payloads
open Idealize.ShloMosaic Idealize.ShloMosaic.TcCoe Idealize.ShloMosaic.ValueIdx Idealize.SL.Sem
open Idealize.ShloMosaic.Pipeline (Dat)
open scoped BigOperators

/-! ## Rows, tiles and runs -/

/-- Row `r` of the `q`-th tile of 512 rows. -/
def rowN (q : ℕ) (r : Fin 512) : Fin 8192 := ⟨(q % 16) * 512 + r.val, by have := r.isLt; omega⟩

/-- Tile `k` of core `cc` is the tile number `8 cc + k`. -/
theorem tileRow_eq (cc : Fin 2) (k : Fin 8) (r : Fin 512) :
    Cert.Hyper.tileRow cc k r = rowN (8 * cc.val + k.val) r := by
  apply Fin.ext
  show (cc.val * 8 + k.val) * 512 + r.val = ((8 * cc.val + k.val) % 16) * 512 + r.val
  have := cc.isLt; have := k.isLt; omega

/-- A sequence that restarts from zero at the multiples of eight and adds a term at every step holds, after step
    `k` of run `cc`, the sum of the run's terms so far. -/
theorem run_sum (a term : ℕ → EReal)
    (hstep : ∀ q, q < 16 → a (q + 1) = (if q % 8 = 0 then 0 else a q) + term q) (cc : ℕ) (hcc : cc < 2) :
    ∀ k, k < 8 → a (8 * cc + k + 1) = ∑ kk ∈ Finset.range (k + 1), term (8 * cc + kk)
  | 0, _ => by
    rw [hstep (8 * cc + 0) (by omega), if_pos (by omega), zero_add, Finset.sum_range_one]
  | k + 1, hk => by
    have ih := run_sum a term hstep cc hcc k (by omega)
    rw [hstep (8 * cc + (k + 1)) (by omega), if_neg (by omega), Finset.sum_range_succ, ← ih]
    rfl

/-- At the end of a run: the sum of its eight terms. -/
theorem run_total (a term : ℕ → EReal)
    (hstep : ∀ q, q < 16 → a (q + 1) = (if q % 8 = 0 then 0 else a q) + term q) (cc : Fin 2) :
    a (8 * cc.val + 8) = ∑ k : Fin 8, term (8 * cc.val + k.val) := by
  rw [← Finset.sum_range (fun kk => term (8 * cc.val + kk))]
  exact run_sum a term hstep cc.val cc.isLt 7 (by omega)

/-! ## One step at an entry -/

/-- If the loaded tiles are the rows `row r` of `H` and of `X`, the aggregate accumulator gains the tile's contraction. -/
theorem stepM_entry (X : Cert.Hyper.SX.Idx → EReal) (H : Cert.Hyper.SH.Idx → EReal)
    (x0 : Vec Ideal S512x2048 .f32) (x1 : Vec Ideal S512x256 .f32) (a : Vec Ideal S256x2048 .f32)
    (row : Fin 512 → Fin 8192) (f : Fin 256) (e : Fin 2048)
    (h0 : ∀ (r : Fin 512) (e : Fin 2048), x0 (ix2 r e) = H (ix2 (row r) e))
    (h1 : ∀ (r : Fin 512) (f : Fin 256), x1 (ix2 r f) = X (ix2 (row r) f)) :
    k0_pay3 x0 x1 a (ix2 f e) = a (ix2 f e) + ∑ r : Fin 512, X (ix2 (row r) f) * H (ix2 (row r) e) := by
  rw [k0_pay3_apply]
  simp only [h0, h1]

/-- Likewise the degree accumulator gains the tile's column sums. -/
theorem stepD_entry (H : Cert.Hyper.SH.Idx → EReal)
    (x0 : Vec Ideal S512x2048 .f32) (a : Vec Ideal S1x2048 .f32)
    (row : Fin 512 → Fin 8192) (e : Fin 2048)
    (h0 : ∀ (r : Fin 512) (e : Fin 2048), x0 (ix2 r e) = H (ix2 (row r) e)) :
    k0_pay4 x0 a (ix2 0 e) = a (ix2 0 e) + ∑ r : Fin 512, H (ix2 (row r) e) := by
  rw [k0_pay4_apply]
  simp only [h0]

/-! ## The index maps on the grid -/

/-- There are sixteen points; the tiles of `H` and `X` at point `t` are tile `t` along the rows and never move along
    the lanes; both results sit at block `t / 8` of their leading axis. -/
theorem idx_facts : ∀ t : Fin cfg0.N,
    t.val < 16
    ∧ win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- Each of the two leading blocks of a result is the block of the last point of a run. -/
theorem idx_onto2 : ∀ q : Fin 2, ∃ t : Fin cfg0.N, t.val % 8 = 7 ∧ win0_2.index t = ![q.val, 0, 0] :=
  (by decide +kernel : ∀ q : Fin 2, ∃ t : Fin grid0.N, t.val % 8 = 7 ∧ win0_2.index t = ![q.val, 0, 0])
theorem idx_onto3 : ∀ q : Fin 2, ∃ t : Fin cfg0.N, t.val % 8 = 7 ∧ win0_3.index t = ![q.val, 0, 0] :=
  (by decide +kernel : ∀ q : Fin 2, ∃ t : Fin grid0.N, t.val % 8 = 7 ∧ win0_3.index t = ![q.val, 0, 0])

theorem N16 : cfg0.N = 16 := by decide

/-! ## The blocks a point reads -/

/-- The tile of `H` at point `t`. -/
theorem iblk0_H (V : (c : Dev nD) → (b : Ref sig .tc) → Buf (Elt Ideal) ((c : Thread nD τ).loc b))
    (c : Dev nD) (t : Fin cfg0.N) (r : Fin 512) (e : Fin 2048) :
    iblk0 V c 0 t (ix2 r e) = V c main_arg1 (ix2 (rowN t.val r) e) := by
  obtain ⟨ht, e00, e01, -⟩ := idx_facts t
  show V c main_arg1 (((cfg0.win 0).blk t).view.emb (ix2 r e)) = V c main_arg1 (ix2 _ e)
  refine congrArg (V c main_arg1) ?_
  funext a; apply Fin.ext
  match a with
  | ⟨0, _⟩ => show win0_0.index t (0 : Fin 2) * 512 + 1 * r.val = (t.val % 16) * 512 + r.val; omega
  | ⟨1, _⟩ => show win0_0.index t (1 : Fin 2) * 2048 + 1 * e.val = e.val; omega

/-- The tile of `X` at point `t`. -/
theorem iblk0_X (V : (c : Dev nD) → (b : Ref sig .tc) → Buf (Elt Ideal) ((c : Thread nD τ).loc b))
    (c : Dev nD) (t : Fin cfg0.N) (r : Fin 512) (f : Fin 256) :
    iblk0 V c 1 t (ix2 r f) = V c main_arg0 (ix2 (rowN t.val r) f) := by
  obtain ⟨ht, -, -, e10, e11, -⟩ := idx_facts t
  show V c main_arg0 (((cfg0.win 1).blk t).view.emb (ix2 r f)) = V c main_arg0 (ix2 _ f)
  refine congrArg (V c main_arg0) ?_
  funext a; apply Fin.ext
  match a with
  | ⟨0, _⟩ => show win0_1.index t (0 : Fin 2) * 512 + 1 * r.val = (t.val % 16) * 512 + r.val; omega
  | ⟨1, _⟩ => show win0_1.index t (1 : Fin 2) * 256 + 1 * f.val = f.val; omega

/-! ## The accumulators along a run -/

/-- The two operand arrays of the launch, as arrays of extended reals. -/
abbrev argX (V : (c : Dev nD) → (b : Ref sig .tc) → Buf (Elt Ideal) ((c : Thread nD τ).loc b)) (c : Dev nD) : Cert.Hyper.SX.Idx → EReal := V c main_arg0
abbrev argH (V : (c : Dev nD) → (b : Ref sig .tc) → Buf (Elt Ideal) ((c : Thread nD τ).loc b)) (c : Dev nD) : Cert.Hyper.SH.Idx → EReal := V c main_arg1

/-- One point, at an entry of the aggregate accumulator. -/
theorem accM_step (V : (c : Dev nD) → (b : Ref sig .tc) → Buf (Elt Ideal) ((c : Thread nD τ).loc b))
    (c : Dev nD) (q : ℕ) (hq : q < 16) (f : Fin 256) (e : Fin 2048) :
    accM V c (q + 1) (ix2 f e) = (if q % 8 = 0 then 0 else accM V c q (ix2 f e))
      + ∑ r : Fin 512, argX V c (ix2 (rowN q r) f) * argH V c (ix2 (rowN q r) e) := by
  have hq' : q < cfg0.N := by rw [N16]; exact hq
  have h := accM_succ V c (⟨q, hq'⟩ : Fin cfg0.N)
  dsimp only at h
  rw [h]
  have e0 : ∀ (r : Fin 512) (e' : Fin 2048), iblk0 V c 0 ⟨q, hq'⟩ (ix2 r e') = V c main_arg1 (ix2 (rowN q r) e') :=
    fun r e' => iblk0_H V c ⟨q, hq'⟩ r e'
  have e1 : ∀ (r : Fin 512) (f' : Fin 256), iblk0 V c 1 ⟨q, hq'⟩ (ix2 r f') = V c main_arg0 (ix2 (rowN q r) f') :=
    fun r f' => iblk0_X V c ⟨q, hq'⟩ r f'
  refine (stepM_entry (argX V c) (argH V c) _ _ _ (rowN q) f e e0 e1).trans ?_
  by_cases h0 : q % 8 = 0
  · rw [if_pos h0, if_pos h0, k0_pay1_apply]
  · rw [if_neg h0, if_neg h0]

/-- One point, at an entry of the degree accumulator. -/
theorem accD_step (V : (c : Dev nD) → (b : Ref sig .tc) → Buf (Elt Ideal) ((c : Thread nD τ).loc b))
    (c : Dev nD) (q : ℕ) (hq : q < 16) (e : Fin 2048) :
    accD V c (q + 1) (ix2 0 e) = (if q % 8 = 0 then 0 else accD V c q (ix2 0 e))
      + ∑ r : Fin 512, argH V c (ix2 (rowN q r) e) := by
  have hq' : q < cfg0.N := by rw [N16]; exact hq
  have h := accD_succ V c (⟨q, hq'⟩ : Fin cfg0.N)
  dsimp only at h
  rw [h]
  have e0 : ∀ (r : Fin 512) (e' : Fin 2048), iblk0 V c 0 ⟨q, hq'⟩ (ix2 r e') = V c main_arg1 (ix2 (rowN q r) e') :=
    fun r e' => iblk0_H V c ⟨q, hq'⟩ r e'
  refine (stepD_entry (argH V c) _ _ (rowN q) e e0).trans ?_
  by_cases h0 : q % 8 = 0
  · rw [if_pos h0, if_pos h0, k0_pay2_apply]
  · rw [if_neg h0, if_neg h0]

/-- After a core's eight points the aggregate accumulator holds the core's partial hyperedge aggregate. -/
theorem accM_run (V : (c : Dev nD) → (b : Ref sig .tc) → Buf (Elt Ideal) ((c : Thread nD τ).loc b))
    (c : Dev nD) (cc : Fin 2) (f : Fin 256) (e : Fin 2048) :
    accM V c (8 * cc.val + 8) (ix2 f e) = Cert.Hyper.partAgg (V c main_arg0) (V c main_arg1) cc f e := by
  refine (run_total (fun q => accM V c q (ix2 f e))
    (fun q => ∑ r : Fin 512, argX V c (ix2 (rowN q r) f) * argH V c (ix2 (rowN q r) e))
    (fun q hq => accM_step V c q hq f e) cc).trans ?_
  unfold Cert.Hyper.partAgg
  simp only [tileRow_eq]

/-- After a core's eight points the degree accumulator holds the core's partial hyperedge degree. -/
theorem accD_run (V : (c : Dev nD) → (b : Ref sig .tc) → Buf (Elt Ideal) ((c : Thread nD τ).loc b))
    (c : Dev nD) (cc : Fin 2) (e : Fin 2048) :
    accD V c (8 * cc.val + 8) (ix2 0 e) = Cert.Hyper.partDeg (V c main_arg1) cc e := by
  refine (run_total (fun q => accD V c q (ix2 0 e))
    (fun q => ∑ r : Fin 512, argH V c (ix2 (rowN q r) e))
    (fun q hq => accD_step V c q hq e) cc).trans ?_
  unfold Cert.Hyper.partDeg
  simp only [tileRow_eq]

/-! ## What a run's last point writes -/

/-- Entry `j` of the copy of the aggregate accumulator at the last point of a run is the core's partial aggregate at the
    place of the result array where entry `j` of the point's block goes. -/
theorem point_entry2 (V : (c : Dev nD) → (b : Ref sig .tc) → Buf (Elt Ideal) ((c : Thread nD τ).loc b))
    (c : Dev nD) (t : Fin cfg0.N) (h7 : t.val % 8 = 7) (j : S1x256x2048.Idx) :
    k0_pay5 (accM V c (t.val + 1)) j
      = (fun i : S2x256x2048.Idx => Cert.Hyper.partAgg (V c main_arg0) (V c main_arg1) (i 0) (i 1) (i 2))
          (((cfg0.win 2).blk t).view.emb j) := by
  obtain ⟨ht, -, -, -, -, e20, e21, e22, -⟩ := idx_facts t
  have hcc : t.val / 8 < 2 := by omega
  have hj0 : (j 0).val < 1 := (j 0).isLt
  obtain ⟨f, e, rfl⟩ : ∃ (f : Fin 256) (e : Fin 2048), j = ix3 (0 : Fin 1) f e :=
    ⟨j 1, j 2, funext fun a => by
      match a with
      | ⟨0, _⟩ => exact Fin.ext (by show (j 0).val = 0; omega)
      | ⟨1, _⟩ => rfl
      | ⟨2, _⟩ => rfl⟩
  have hi : ((cfg0.win 2).blk t).view.emb (ix3 (0 : Fin 1) f e) = ix3 (⟨t.val / 8, hcc⟩ : Fin 2) f e := by
    funext a; apply Fin.ext
    match a with
    | ⟨0, _⟩ => show win0_2.index t (0 : Fin 3) * 1 + 1 * (0 : Fin 1).val = t.val / 8; omega
    | ⟨1, _⟩ => show win0_2.index t (1 : Fin 3) * 256 + 1 * f.val = f.val; omega
    | ⟨2, _⟩ => show win0_2.index t (2 : Fin 3) * 2048 + 1 * e.val = e.val; omega
  rw [hi, k0_pay5_apply]
  show accM V c (t.val + 1) (ix2 f e) = Cert.Hyper.partAgg _ _ (⟨t.val / 8, hcc⟩ : Fin 2) f e
  have ht8 : t.val + 1 = 8 * (t.val / 8) + 8 := by omega
  rw [ht8]
  exact accM_run V c ⟨t.val / 8, hcc⟩ f e

/-- Likewise the copy of the degree accumulator. -/
theorem point_entry3 (V : (c : Dev nD) → (b : Ref sig .tc) → Buf (Elt Ideal) ((c : Thread nD τ).loc b))
    (c : Dev nD) (t : Fin cfg0.N) (h7 : t.val % 8 = 7) (j : S1x1x2048.Idx) :
    k0_pay6 (accD V c (t.val + 1)) j
      = (fun i : S2x1x2048.Idx => Cert.Hyper.partDeg (V c main_arg1) (i 0) (i 2))
          (((cfg0.win 3).blk t).view.emb j) := by
  obtain ⟨ht, -, -, -, -, -, -, -, e30, e31, e32⟩ := idx_facts t
  have hcc : t.val / 8 < 2 := by omega
  have hj0 : (j 0).val < 1 := (j 0).isLt
  have hj1 : (j 1).val < 1 := (j 1).isLt
  obtain ⟨e, rfl⟩ : ∃ (e : Fin 2048), j = ix3 (0 : Fin 1) (0 : Fin 1) e :=
    ⟨j 2, funext fun a => by
      match a with
      | ⟨0, _⟩ => exact Fin.ext (by show (j 0).val = 0; omega)
      | ⟨1, _⟩ => exact Fin.ext (by show (j 1).val = 0; omega)
      | ⟨2, _⟩ => rfl⟩
  have hi : ((cfg0.win 3).blk t).view.emb (ix3 (0 : Fin 1) (0 : Fin 1) e) = ix3 (⟨t.val / 8, hcc⟩ : Fin 2) (0 : Fin 1) e := by
    funext a; apply Fin.ext
    match a with
    | ⟨0, _⟩ => show win0_3.index t (0 : Fin 3) * 1 + 1 * (0 : Fin 1).val = t.val / 8; omega
    | ⟨1, _⟩ => show win0_3.index t (1 : Fin 3) * 1 + 1 * (0 : Fin 1).val = (0 : Fin 1).val; omega
    | ⟨2, _⟩ => show win0_3.index t (2 : Fin 3) * 2048 + 1 * e.val = e.val; omega
  rw [hi, k0_pay6_apply]
  show accD V c (t.val + 1) (ix2 0 e) = Cert.Hyper.partDeg _ (⟨t.val / 8, hcc⟩ : Fin 2) e
  have ht8 : t.val + 1 = 8 * (t.val / 8) + 8 := by omega
  rw [ht8]
  exact accD_run V c ⟨t.val / 8, hcc⟩ e

/-- What the last point of a run writes back to the first result is its block of the partial aggregates. -/
theorem flushed_eq2 (V : (c : Dev nD) → (b : Ref sig .tc) → Buf (Elt Ideal) ((c : Thread nD τ).loc b))
    (c : Dev nD) (t : Fin cfg0.N) (hf : (cfg0.win 2).flush t = true) :
    (dat0 V c).flushed 2 t = ((cfg0.win 2).blk t).view.read (Elt Ideal)
      (fun i : S2x256x2048.Idx => Cert.Hyper.partAgg (V c main_arg0) (V c main_arg1) (i 0) (i 1) (i 2)) := by
  have h7 : t.val % 8 = 7 := (flush0_2 t).mp hf
  show (cfg0.win 2).cut (grid0.coords t) ((dat0 V c).after 2 t) = _
  rw [after0_2]
  funext j
  exact point_entry2 V c t h7 j

/-- What the last point of a run writes back to the second result is its block of the partial degrees. -/
theorem flushed_eq3 (V : (c : Dev nD) → (b : Ref sig .tc) → Buf (Elt Ideal) ((c : Thread nD τ).loc b))
    (c : Dev nD) (t : Fin cfg0.N) (hf : (cfg0.win 3).flush t = true) :
    (dat0 V c).flushed 3 t = ((cfg0.win 3).blk t).view.read (Elt Ideal)
      (fun i : S2x1x2048.Idx => Cert.Hyper.partDeg (V c main_arg1) (i 0) (i 2)) := by
  have h7 : t.val % 8 = 7 := (flush0_3 t).mp hf
  show (cfg0.win 3).cut (grid0.coords t) ((dat0 V c).after 3 t) = _
  rw [after0_3]
  funext j
  exact point_entry3 V c t h7 j

/-! ## The two blocks cover each result -/

theorem mem_blk2 (t : Fin cfg0.N) (i : S2x256x2048.Idx) :
    i ∈ ((cfg0.win 2).blk t).view.set ↔ ∀ a : Fin 3, win0_2.index t a * S1x256x2048.size a ≤ (i a).val ∧ (i a).val < win0_2.index t a * S1x256x2048.size a + S1x256x2048.size a := by
  show i ∈ ((View.whole main_v0_0).slice (win0_2.rect t)).set ↔ _
  rw [View.set_slice_whole, Rect.mem_set_unit]
  exact Iff.rfl

theorem mem_blk3 (t : Fin cfg0.N) (i : S2x1x2048.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v0_1).slice (win0_3.rect t)).set ↔ _
  rw [View.set_slice_whole, Rect.mem_set_unit]
  exact Iff.rfl

/-- Block `c` of the first result is written back by the last point of run `c`. -/
theorem cover2 (i : S2x256x2048.Idx) :
    ∃ t : Fin cfg0.N, (cfg0.win 2).flush t = true ∧ i ∈ ((cfg0.win 2).blk t).view.set := by
  have hi0 : (i 0).val < 2 := (i 0).isLt
  have hi1 : (i 1).val < 256 := (i 1).isLt
  have hi2 : (i 2).val < 2048 := (i 2).isLt
  obtain ⟨t, h7, ht⟩ := idx_onto2 ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, (flush0_2 t).mpr h7, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- Block `c` of the second result likewise. -/
theorem cover3 (i : S2x1x2048.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 2048 := (i 2).isLt
  obtain ⟨t, h7, ht⟩ := idx_onto3 ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, (flush0_3 t).mpr h7, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 2048 ≤ (i 2).val ∧ (i 2).val < win0_3.index t (2 : Fin 3) * 2048 + 2048; omega

/-! ## The arrays after the run of the pipeline -/

/-- The first result ends at the two cores' partial hyperedge aggregates. -/
theorem final0_2 (V : (c : Dev nD) → (b : Ref sig .tc) → Buf (Elt Ideal) ((c : Thread nD τ).loc b)) (c : Dev nD) :
    (dat0 V c).arrAt 2 cfg0.N
      = fun j : S2x256x2048.Idx => Cert.Hyper.partAgg (V c main_arg0) (V c main_arg1) (j 0) (j 1) (j 2) :=
  (dat0 V c).arrAt_eq_of_cover 2
    (fun j : S2x256x2048.Idx => Cert.Hyper.partAgg (V c main_arg0) (V c main_arg1) (j 0) (j 1) (j 2))
    (fun t hf => flushed_eq2 V c t hf) cover2

/-- The second result ends at the two cores' partial hyperedge degrees. -/
theorem final0_3 (V : (c : Dev nD) → (b : Ref sig .tc) → Buf (Elt Ideal) ((c : Thread nD τ).loc b)) (c : Dev nD) :
    (dat0 V c).arrAt 3 cfg0.N
      = fun j : S2x1x2048.Idx => Cert.Hyper.partDeg (V c main_arg1) (j 0) (j 2) :=
  (dat0 V c).arrAt_eq_of_cover 3
    (fun j : S2x1x2048.Idx => Cert.Hyper.partDeg (V c main_arg1) (j 0) (j 2))
    (fun t hf => flushed_eq3 V c t hf) cover3

end Cert.KernelIdeal.R0Value

end
-- ==== Proof.R1Value.lean ====
import proofs.«409522_j46737834115089_3_alg».proof.Proof.R1
import proofs.«409522_j46737834115089_3_alg».proof.Proof.Payloads
import proofs.«409522_j46737834115089_3_alg».proof.Proof.Spec2
import Idealize.ShloMosaic.Lib.Pipeline.Value
import Idealize.ShloMosaic.Lib.ValueIdx

/-!
# The output array of the second pallas_call, as one function of its operands

Over the ideal numbers. Point `t` of the sixteen writes rows `512 t … 512 t + 511` of the output.
Row `r` of that tile is computed from row `512 t + r` of the incidence matrix and from the whole of
the aggregate, the weights and the bias row; so what the point writes is the corresponding block
of `Cert.Hyper.linOut` of the four operand arrays. The sixteen tiles cover all 8192 rows, hence the
array ends equal to `linOut` everywhere.
-/

noncomputable section

namespace Cert.KernelIdeal.R1Value

open Cert.KernelIdeal Cert.KernelIdeal.Gen Cert.KernelIdeal.R1 Cert.KernelIdeal.Payloads
open Idealize.ShloMosaic Idealize.ShloMosaic.TcCoe Idealize.ShloMosaic.ValueIdx Idealize.SL.Sem
open Idealize.ShloMosaic.Pipeline (Dat)
open scoped BigOperators

/-- The zero offset of a whole-buffer rectangle. -/
theorem off_zero : (![0, 0] : Fin 2 → Nat) = fun _ => 0 := funext fun a => by fin_cases a <;> rfl

/-! ## One entry of a tile -/

/-- If row `r` of the loaded tile is row `n` of `H`, and the other three loaded blocks are the whole
    of `M`, `W` and `B`, then entry `(r, o)` of the kernel's payload is entry `(n, o)` of `linOut`. -/
theorem tile_entry (H : Cert.Hyper.SH.Idx → EReal) (M : Cert.Hyper.SM.Idx → EReal) (W : Cert.Hyper.SW.Idx → EReal)
    (B : Cert.Hyper.SB.Idx → EReal)
    (x0 : Vec Ideal S512x2048 .f32) (x1 : Vec Ideal S256x2048 .f32) (x2 : Vec Ideal S256x256 .f32) (x3 : Vec Ideal S1x256 .f32)
    (n : Fin 8192) (r : Fin 512) (o : Fin 256)
    (h0 : ∀ e : Fin 2048, x0 (ix2 r e) = H (ix2 n e))
    (h1 : ∀ (f : Fin 256) (e : Fin 2048), x1 (ix2 f e) = M (ix2 f e))
    (h2 : ∀ (o f : Fin 256), x2 (ix2 o f) = W (ix2 o f))
    (h3 : ∀ o : Fin 256, x3 (ix2 0 o) = B (ix2 0 o)) :
    k1_pay1 x0 x1 x2 x3 (ix2 r o) = Cert.Hyper.linOut H M W B (ix2 n o) := by
  rw [k1_pay1_apply, Cert.Hyper.linOut_ix2]
  simp only [h0, h1, h2, h3]

/-! ## The index maps on the grid -/

/-- The tile of `H` moves with the output tile along the rows and never along the lanes; `M`, `W` and
    `B` sit at block `(0, 0)` at every point; the output's row-block index is at most `15` and its
    column-block index is `0`. -/
theorem idx_facts : ∀ t : Fin cfg1.N,
    win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 15 ∧ win1_4.index t (1 : Fin 2) = 0 :=
  (by decide +kernel : ∀ t : Fin grid1.N, _)

/-- Every one of the sixteen row blocks is the output block of some point. -/
theorem idx_onto : ∀ q : Fin 16, ∃ t : Fin cfg1.N, win1_4.index t = ![q.val, 0] :=
  (by decide +kernel : ∀ q : Fin 16, ∃ t : Fin grid1.N, win1_4.index t = ![q.val, 0])

/-! ## What a point writes -/

/-- Entry `j` of the payload on the four blocks of point `t` is `linOut` of the operand arrays at the
    place of the output array where entry `j` of the point's tile goes. -/
theorem point_entry (V : (c : Dev nD) → (b : Ref sig .tc) → Buf (Elt Ideal) ((c : Thread nD τ).loc b))
    (c : Dev nD) (t : Fin cfg1.N) (j : S512x256.Idx) :
    k1_pay1 (iblk1 V c 0 t) (iblk1 V c 1 t) (iblk1 V c 2 t) (iblk1 V c 3 t) j
      = Cert.Hyper.linOut (V c main_arg1) (V c main_v6) (V c main_arg2) (V c main_v7) (((cfg1.win 4).blk t).view.emb j) := by
  obtain ⟨e00, e01, e10, e11, e20, e21, e30, e31, e40, e41⟩ := idx_facts t
  have hj0 : (j 0).val < 512 := (j 0).isLt
  have hj1 : (j 1).val < 256 := (j 1).isLt
  -- the row of the array this entry goes to
  have hn : win1_4.index t (0 : Fin 2) * 512 + (j 0).val < 8192 := by omega
  have hi : ((cfg1.win 4).blk t).view.emb j = ix2 (⟨win1_4.index t (0 : Fin 2) * 512 + (j 0).val, hn⟩ : Fin 8192) (j 1) := by
    funext a; apply Fin.ext
    match a with
    | ⟨0, _⟩ => show win1_4.index t (0 : Fin 2) * 512 + 1 * (j 0).val = win1_4.index t (0 : Fin 2) * 512 + (j 0).val; omega
    | ⟨1, _⟩ => show win1_4.index t (1 : Fin 2) * 256 + 1 * (j 1).val = (j 1).val; omega
  rw [hi]
  refine (congrArg (fun y => k1_pay1 (iblk1 V c 0 t) (iblk1 V c 1 t) (iblk1 V c 2 t) (iblk1 V c 3 t) y) (eq_ix2 j)).trans ?_
  refine tile_entry _ _ _ _ _ _ _ _ _ (j 0) (j 1) ?_ ?_ ?_ ?_
  · intro e
    show V c main_arg1 (((cfg1.win 0).blk t).view.emb (ix2 (j 0) e)) = V c main_arg1 (ix2 _ e)
    refine congrArg (V c main_arg1) ?_
    funext a; apply Fin.ext
    match a with
    | ⟨0, _⟩ => show win1_0.index t (0 : Fin 2) * 512 + 1 * (j 0).val = win1_4.index t (0 : Fin 2) * 512 + (j 0).val; omega
    | ⟨1, _⟩ => show win1_0.index t (1 : Fin 2) * 2048 + 1 * e.val = e.val; omega
  · intro f e
    show V c main_v6 (((cfg1.win 1).blk t).view.emb (ix2 f e)) = V c main_v6 (ix2 f e)
    refine congrArg (V c main_v6) ?_
    funext a; apply Fin.ext
    match a with
    | ⟨0, _⟩ => show win1_1.index t (0 : Fin 2) * 256 + 1 * f.val = f.val; omega
    | ⟨1, _⟩ => show win1_1.index t (1 : Fin 2) * 2048 + 1 * e.val = e.val; omega
  · intro o f
    show V c main_arg2 (((cfg1.win 2).blk t).view.emb (ix2 o f)) = V c main_arg2 (ix2 o f)
    refine congrArg (V c main_arg2) ?_
    funext a; apply Fin.ext
    match a with
    | ⟨0, _⟩ => show win1_2.index t (0 : Fin 2) * 256 + 1 * o.val = o.val; omega
    | ⟨1, _⟩ => show win1_2.index t (1 : Fin 2) * 256 + 1 * f.val = f.val; omega
  · intro o
    show V c main_v7 (((cfg1.win 3).blk t).view.emb (ix2 0 o)) = V c main_v7 (ix2 0 o)
    refine congrArg (V c main_v7) ?_
    funext a; apply Fin.ext
    match a with
    | ⟨0, _⟩ => show win1_3.index t (0 : Fin 2) * 1 + 1 * (0 : Fin 1).val = (0 : Fin 1).val; omega
    | ⟨1, _⟩ => show win1_3.index t (1 : Fin 2) * 256 + 1 * o.val = o.val; omega

/-- What point `t` writes back is block `t` of `linOut` of the operand arrays. -/
theorem flushed_eq (V : (c : Dev nD) → (b : Ref sig .tc) → Buf (Elt Ideal) ((c : Thread nD τ).loc b))
    (c : Dev nD) (t : Fin cfg1.N) :
    (dat1 V c).flushed 4 t = ((cfg1.win 4).blk t).view.read (Elt Ideal)
      (Cert.Hyper.linOut (V c main_arg1) (V c main_v6) (V c main_arg2) (V c main_v7)) := by
  show (cfg1.win 4).cut (grid1.coords t) ((dat1 V c).after 4 t) = _
  rw [after1_4]
  unfold out1_4
  rw [View.canon_unit_zero off_zero]
  simp only [View.ld_unit_zero (S := S512x2048) off_zero, View.ld_unit_zero (S := S256x2048) off_zero,
    View.ld_unit_zero (S := S256x256) off_zero, View.ld_unit_zero (S := S1x256) off_zero]
  funext j
  exact point_entry V c t j

/-! ## The tiles cover the array -/

/-- An index of the array lies in the block of point `t` exactly when each coordinate lies in the
    block's range on its axis. -/
theorem mem_blk (t : Fin cfg1.N) (i : S8192x256.Idx) :
    i ∈ ((cfg1.win 4).blk t).view.set ↔ ∀ a : Fin 2, win1_4.index t a * S512x256.size a ≤ (i a).val ∧ (i a).val < win1_4.index t a * S512x256.size a + S512x256.size a := by
  show i ∈ ((View.whole main_v8).slice (win1_4.rect t)).set ↔ _
  rw [View.set_slice_whole, Rect.mem_set_unit]
  exact Iff.rfl

/-- Row `n` of the array is in the tile of the point whose row block is `n / 512`; every point
    writes its tile back. -/
theorem cover (i : S8192x256.Idx) :
    ∃ t : Fin cfg1.N, (cfg1.win 4).flush t = true ∧ i ∈ ((cfg1.win 4).blk t).view.set := by
  have hi0 : (i 0).val < 8192 := (i 0).isLt
  have hi1 : (i 1).val < 256 := (i 1).isLt
  obtain ⟨t, ht⟩ := idx_onto ⟨(i 0).val / 512, by omega⟩
  have q0 : win1_4.index t (0 : Fin 2) = (i 0).val / 512 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 256 ≤ (i 1).val ∧ (i 1).val < win1_4.index t (1 : Fin 2) * 256 + 256; omega

/-! ## The array after the run of the pipeline -/

/-- The output array ends equal to `linOut` of the incidence matrix, the aggregate, the weights and
    the bias row, as found on entry. -/
theorem final1_4 (V : (c : Dev nD) → (b : Ref sig .tc) → Buf (Elt Ideal) ((c : Thread nD τ).loc b)) (c : Dev nD) :
    (dat1 V c).arrAt 4 cfg1.N = Cert.Hyper.linOut (V c main_arg1) (V c main_v6) (V c main_arg2) (V c main_v7) :=
  (dat1 V c).arrAt_eq_of_cover 4 (Cert.Hyper.linOut (V c main_arg1) (V c main_v6) (V c main_arg2) (V c main_v7))
    (fun t _ => flushed_eq V c t) cover

end Cert.KernelIdeal.R1Value

end
-- ==== Proof.HostValue.lean ====
import proofs.«409522_j46737834115089_3_alg».proof.Proof.Gen.KernelIdeal.Launch
import proofs.«409522_j46737834115089_3_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostValue

open Cert.KernelIdeal Cert.KernelIdeal.Gen Idealize.ShloMosaic Idealize.ShloMosaic.ValueIdx Idealize.ShloMosaic.TcCoe
open Idealize.SL.Sem
open scoped BigOperators

/-- The pattern of one. -/
theorem one_bits : Ideal.ofBits .f32 0x3F800000#32 = 1 := by
  simp [Ideal.ofBits, Ideal.ieee, -EReal.coe_mul]; norm_num

/-- The sum of the two partial products over the leading axis, from the zero initial value. -/
theorem sum0_apply (A : FVec Ideal S2x256x2048 .f32) (f : Fin 256) (e : Fin 2048) :
    Host.reduceAdd (F := Ideal) A (constant (F := Ideal) S_ .f32 0x00000000#32) reducesTo_S2x256x2048_S256x2048_d0 h_S_ (ix2 f e)
      = 0 + ∑ c : Fin 2, A (ix3 c f e) := by
  simp only [Host.reduceAdd, Ideal.hostReduceAdd_def]
  rw [Ideal.hostReduceAdd_single reducesTo_S2x256x2048_S256x2048_d0 (by decide), constant_apply, Ideal.ofBits_zero_f32]
  refine congrArg (0 + ·) (Finset.sum_congr rfl fun c _ => congrArg A ?_)
  exact funext fun a => Fin.ext (by match a with | ⟨0, _⟩ => rfl | ⟨1, _⟩ => rfl | ⟨2, _⟩ => rfl)

/-- The sum of the two partial column sums over the leading axis, from the zero initial value. -/
theorem sum1_apply (B : FVec Ideal S2x1x2048 .f32) (u : Fin 1) (e : Fin 2048) :
    Host.reduceAdd (F := Ideal) B (constant (F := Ideal) S_ .f32 0x00000000#32) reducesTo_S2x1x2048_S1x2048_d0 h_S_ (ix2 u e)
      = 0 + ∑ c : Fin 2, B (ix3 c u e) := by
  simp only [Host.reduceAdd, Ideal.hostReduceAdd_def]
  rw [Ideal.hostReduceAdd_single reducesTo_S2x1x2048_S1x2048_d0 (by decide), constant_apply, Ideal.ofBits_zero_f32]
  refine congrArg (0 + ·) (Finset.sum_congr rfl fun c _ => congrArg B ?_)
  exact funext fun a => Fin.ext (by match a with | ⟨0, _⟩ => rfl | ⟨1, _⟩ => rfl | ⟨2, _⟩ => rfl)

/-- The splat of one reads one everywhere. -/
theorem one_apply (j : S1x2048.Idx) :
    broadcastInDim S1x2048 ![] bcast_S_S1x2048 (constant (F := Ideal) S_ .f32 0x3F800000#32) j = 1 := by
  refine (broadcastInDim_apply _ bcast_S_S1x2048 _ j (fun a => a.elim0) (fun a => a.elim0)).trans ?_
  rw [constant_apply]
  exact one_bits

/-- The host term of the scaled product, read at `(f, e)`: the summed partial products times the reciprocal of the
    summed partial column sums. -/
theorem v6_term_apply (A : FVec Ideal S2x256x2048 .f32) (B : FVec Ideal S2x1x2048 .f32) (f : Fin 256) (e : Fin 2048) :
    mulf (Host.reduceAdd (F := Ideal) A (constant (F := Ideal) S_ .f32 0x00000000#32) reducesTo_S2x256x2048_S256x2048_d0 h_S_)
        (broadcastInDim S256x2048 ![0, 1] bcast_S1x2048_S256x2048_0_1
          (Host.divf (broadcastInDim S1x2048 ![] bcast_S_S1x2048 (constant (F := Ideal) S_ .f32 0x3F800000#32))
            (Host.reduceAdd (F := Ideal) B (constant (F := Ideal) S_ .f32 0x00000000#32) reducesTo_S2x1x2048_S1x2048_d0 h_S_)))
        (ix2 f e)
      = (0 + ∑ c : Fin 2, A (ix3 c f e)) * Ideal.div 1 (0 + ∑ c : Fin 2, B (ix3 c 0 e)) := by
  rw [mulf_apply, sum0_apply]
  refine congrArg ((0 + ∑ c : Fin 2, A (ix3 c f e)) * ·) ?_
  refine (broadcastInDim_apply _ bcast_S1x2048_S256x2048_0_1 _ (ix2 f e) (ix2 (0 : Fin 1) e) (fun a => match a with
    | ⟨0, _⟩ => by show 0 = if (1 : Nat) = 1 then 0 else f.val; rw [if_pos rfl]
    | ⟨1, _⟩ => by show e.val = if (2048 : Nat) = 1 then 0 else e.val; rw [if_neg (by decide)])).trans ?_
  show Ideal.div _ _ = _
  rw [one_apply, sum1_apply]

/-- What the host stretch leaves in the scaled product's buffer, read at `(f, e)`. -/
theorem v6_apply (Vv : Valuation τ sig (Elt Ideal)) (f : Fin 256) (e : Fin 2048) :
    (StableHlo.after (hostOps1 (F := Ideal)) Vv (Proc.devRef .tc main_v6) : S256x2048.Idx → EReal) (ix2 f e)
      = (0 + Finset.sum (M := EReal) Finset.univ fun c : Fin 2 => Vv (Proc.devRef .tc main_v0_0) (ix3 c f e))
        * Ideal.div 1 (0 + Finset.sum (M := EReal) Finset.univ fun c : Fin 2 => Vv (Proc.devRef .tc main_v0_1) (ix3 c 0 e)) := by
  show StableHlo.after hostOps1 _ (Proc.devRef .tc main_v6) _ = _
  after_results
  exact v6_term_apply _ _ f e

/-- What the host stretch leaves in the bias row's buffer, read at `(0, o)`: the bias vector's entry `o`. -/
theorem v7_apply (Vv : Valuation τ sig (Elt Ideal)) (o : Fin 256) :
    (StableHlo.after (hostOps1 (F := Ideal)) Vv (Proc.devRef .tc main_v7) : S1x256.Idx → EReal) (ix2 0 o)
      = (Vv (Proc.devRef .tc main_arg3) : S256.Idx → EReal) (ix1 o) := by
  show StableHlo.after hostOps1 _ (Proc.devRef .tc main_v7) _ = _
  after_results
  exact shapeCast_a_1a_apply (Vv (Proc.devRef .tc main_arg3) : S256.Idx → EReal) shapeCasts_S256_S1x256 0 o

/-- The host stretch leaves every buffer it does not write as it found it. -/
theorem keeps (Vv : Valuation τ sig (Elt Ideal)) (b : Ref sig .tc)
    (hb : b ∉ [main_cst, main_v1, main_cst_0, main_v2, main_cst_1, main_v3, main_v4, main_v5, main_v6, main_v7]) :
    StableHlo.after (hostOps1 (F := Ideal)) Vv (Proc.devRef .tc b) = Vv (Proc.devRef .tc b) :=
  StableHlo.after_of_writes_sub hostOps1 Vv hostOps1_writes hb

end Cert.KernelIdeal.HostValue

end
-- ==== Proof.SplitSums.lean ====
import proofs.«409522_j46737834115089_3_alg».proof.Proof.Spec2
import Mathlib.Data.Fintype.BigOperators
import Mathlib.Logic.Equiv.Fin.Basic

noncomputable section

namespace Cert.Hyper

open Idealize.ShloMosaic Idealize.ShloMosaic.ValueIdx
open scoped BigOperators

/-- The 8192 rows as 2 cores of 8 tiles of 512 rows: the row of (core, tile, row in tile), a bijection. -/
def tileEquiv : (Fin 2 × Fin 8) × Fin 512 ≃ Fin 8192 :=
  ((finProdFinEquiv (m := 2) (n := 8)).prodCongr (Equiv.refl (Fin 512))).trans (finProdFinEquiv (m := 2 * 8) (n := 512))

theorem tileEquiv_apply (c : Fin 2) (k : Fin 8) (r : Fin 512) : tileEquiv ((c, k), r) = tileRow c k r := by
  apply Fin.ext
  show r.val + 512 * (k.val + 8 * c.val) = (c.val * 8 + k.val) * 512 + r.val
  omega

/-- A sum over the 8192 rows, taken core by core, tile by tile, row by row. -/
theorem sum_tiles (g : Fin 8192 → EReal) :
    ∑ c : Fin 2, ∑ k : Fin 8, ∑ r : Fin 512, g (tileRow c k r) = ∑ n : Fin 8192, g n := by
  rw [← Equiv.sum_comp tileEquiv g, Fintype.sum_prod_type, Fintype.sum_prod_type]
  simp only [tileEquiv_apply]

/-- The two cores' partial aggregates, joined, are the hyperedge aggregate. -/
theorem joinAgg_eq_edgeAgg (X : SX.Idx → EReal) (H : SH.Idx → EReal) (f : Fin 256) (e : Fin 2048) :
    joinAgg X H f e = edgeAgg X H f e := by
  have h1 := sum_tiles (fun n => X (ix2 n f) * H (ix2 n e))
  have h2 := sum_tiles (fun n => H (ix2 n e))
  unfold joinAgg partAgg partDeg edgeAgg colDeg
  rw [zero_add, zero_add, h1, h2]

/-- The second half applied to the joined aggregate and the bias as a row is the whole result. -/
theorem linOut_eq_G (X : SX.Idx → EReal) (H : SH.Idx → EReal) (W : SW.Idx → EReal) (b : Sb.Idx → EReal) :
    linOut H (fun j => joinAgg X H (j 0) (j 1)) W (fun j => b (ix1 (j 1))) = G X H W b := by
  funext i
  obtain ⟨n, o, rfl⟩ : ∃ n o, i = ix2 n o := ⟨i 0, i 1, eq_ix2 i⟩
  rw [linOut_ix2, G_ix2]
  unfold out nodeAgg rowDeg
  simp only [joinAgg_eq_edgeAgg]

end Cert.Hyper

end
-- ==== Proof.Bridge.lean ====
import proofs.«409522_j46737834115089_3_alg».proof.Proof.Run
import proofs.«409522_j46737834115089_3_alg».proof.Proof.RunArgs
import proofs.«409522_j46737834115089_3_alg».proof.Proof.R0Value
import proofs.«409522_j46737834115089_3_alg».proof.Proof.R1Value
import proofs.«409522_j46737834115089_3_alg».proof.Proof.HostValue
import proofs.«409522_j46737834115089_3_alg».proof.Proof.SplitSums

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem
open scoped BigOperators

/-! # The program's result is the convolution of its arguments

The second launch leaves `linOut` of its four arrays as it finds them.  Two of them are arguments, which hold their
launch contents; the aggregate is what the host operations make of the first launch's two partial arrays, the joined
aggregate; the bias row is the bias vector reshaped. -/

/-- From the two partial arrays as the first launch leaves them, the host operations leave the joined aggregate. -/
theorem v6_join (Vv : Valuation τ sig (Elt Ideal)) (X : Cert.Hyper.SX.Idx → EReal) (H : Cert.Hyper.SH.Idx → EReal)
    (h0 : (Vv (Proc.devRef .tc main_v0_0) : S2x256x2048.Idx → EReal)
      = fun j : S2x256x2048.Idx => Cert.Hyper.partAgg X H (j 0) (j 1) (j 2))
    (h1 : (Vv (Proc.devRef .tc main_v0_1) : S2x1x2048.Idx → EReal)
      = fun j : S2x1x2048.Idx => Cert.Hyper.partDeg H (j 0) (j 2)) :
    (StableHlo.after (hostOps1 (F := Ideal)) Vv (Proc.devRef .tc main_v6) : Cert.Hyper.SM.Idx → EReal)
      = fun j : Cert.Hyper.SM.Idx => Cert.Hyper.joinAgg X H (j 0) (j 1) := by
  funext j
  obtain ⟨f, e, rfl⟩ : ∃ (f : Fin 256) (e : Fin 2048), j = ix2 f e := ⟨j 0, j 1, eq_ix2 j⟩
  refine (HostValue.v6_apply Vv f e).trans ?_
  have e0 : ∀ c : Fin 2, (Vv (Proc.devRef .tc main_v0_0) : S2x256x2048.Idx → EReal) (ix3 c f e) = Cert.Hyper.partAgg X H c f e :=
    fun c => congrFun h0 (ix3 c f e)
  have e1 : ∀ c : Fin 2, (Vv (Proc.devRef .tc main_v0_1) : S2x1x2048.Idx → EReal) (ix3 c 0 e) = Cert.Hyper.partDeg H c e :=
    fun c => congrFun h1 (ix3 c 0 e)
  show _ = Cert.Hyper.joinAgg X H f e
  unfold Cert.Hyper.joinAgg
  exact congrArg₂ (fun a b : EReal => (0 + a) * Ideal.div 1 (0 + b))
    (Finset.sum_congr rfl fun c _ => e0 c) (Finset.sum_congr rfl fun c _ => e1 c)

/-- From the bias vector, the host operations leave it as a row. -/
theorem v7_row (Vv : Valuation τ sig (Elt Ideal)) (b : Cert.Hyper.Sb.Idx → EReal)
    (h : (Vv (Proc.devRef .tc main_arg3) : S256.Idx → EReal) = b) :
    (StableHlo.after (hostOps1 (F := Ideal)) Vv (Proc.devRef .tc main_v7) : Cert.Hyper.SB.Idx → EReal)
      = fun j : Cert.Hyper.SB.Idx => b (ix1 (j 1)) := by
  funext j
  obtain ⟨u, o, rfl⟩ : ∃ (u : Fin 1) (o : Fin 256), j = ix2 u o := ⟨j 0, j 1, eq_ix2 j⟩
  obtain rfl : u = 0 := Subsingleton.elim u 0
  refine (HostValue.v7_apply Vv o).trans ?_
  exact congrFun h (ix1 o)

/-- `linOut` of equal arrays. -/
theorem linOut_congr {H H' : Cert.Hyper.SH.Idx → EReal} {M M' : Cert.Hyper.SM.Idx → EReal} {W W' : Cert.Hyper.SW.Idx → EReal}
    {B B' : Cert.Hyper.SB.Idx → EReal} (hH : H' = H) (hM : M' = M) (hW : W' = W) (hB : B' = B) :
    Cert.Hyper.linOut H' M' W' B' = Cert.Hyper.linOut H M W B := by
  subst hH hM hW hB; rfl

/-- After the second launch the result buffer holds the convolution of the four arguments as launched. -/
theorem W3_main_v8 (m : (ℓ : Loc nD τ sig) → Buf (Elt Ideal) ℓ) (ρ : Dev nD → PrngReg) (c : Dev nD) :
    (Run.W3 m ρ c (Proc.devRef .tc main_v8) : S8192x256.Idx → EReal)
      = Cert.Hyper.G (m ((c : Thread nD τ).loc main_arg0)) (m ((c : Thread nD τ).loc main_arg1))
          (m ((c : Thread nD τ).loc main_arg2)) (m ((c : Thread nD τ).loc main_arg3)) := by
  refine (Run.W3_arr m ρ c 4).trans ?_
  refine (R1Value.final1_4 (Run.V2 m ρ) c).trans ?_
  refine (linOut_congr (RunArgs.W2_main_arg1 m ρ c)
    (v6_join (Run.W1 m ρ c) (m ((c : Thread nD τ).loc main_arg0)) (m ((c : Thread nD τ).loc main_arg1))
      ((Run.W1_arr m ρ c 2).trans (R0Value.final0_2 (Run.V0 m ρ) c))
      ((Run.W1_arr m ρ c 3).trans (R0Value.final0_3 (Run.V0 m ρ) c)))
    (RunArgs.W2_main_arg2 m ρ c)
    (v7_row (Run.W1 m ρ c) (m ((c : Thread nD τ).loc main_arg3)) (RunArgs.W1_main_arg3 m ρ c))).trans ?_
  exact Cert.Hyper.linOut_eq_G _ _ _ _

end Cert.KernelIdeal.Bridge

end
-- ==== Proof.PreFacts.lean ====
import proofs.«409522_j46737834115089_3_alg».proof.Pre_finite_inputs
import proofs.«409522_j46737834115089_3_alg».proof.Proof.Gen.Pre_finite_inputs
import proofs.«409522_j46737834115089_3_alg».proof.Proof.Spec
import Idealize.ShloMosaic.Lib.ReduceAll
import Idealize.ShloMosaic.Lib.IdealHost
import Idealize.ShloMosaic.PureOps.Ideal.Laws

noncomputable section

namespace Cert.PreFacts

open Idealize.ShloMosaic Idealize.ShloMosaic.ValueIdx Cert.Pre_finite_inputs
open scoped BigOperators

instance : Subsingleton S_.Idx := ⟨fun a b => funext fun d => d.elim0⟩

/-- What the precondition says of the incidence matrix: every node has positive degree, every hyperedge a degree
    that is not zero, and every entry is a real number. -/
structure Admissible (H : Cert.Hyper.SH.Idx → EReal) : Prop where
  row_pos : ∀ n : Fin 8192, 0 < Cert.Hyper.rowDeg H n
  col_ne : ∀ e : Fin 2048, Cert.Hyper.colDeg H e ≠ 0
  finite : ∀ i, H i ≠ ⊥ ∧ H i ≠ ⊤

/-- The pattern of the positive infinity is the top of the extended reals. -/
theorem inf_bits : Ideal.ofBits .f32 0x7F800000#32 = ⊤ := by
  simp [Ideal.ofBits, Ideal.ieee]

theorem ofBool_eq_one (c : Bool) : BitVec.ofBool c = 1#1 ↔ c = true := by cases c <;> decide

/-- An extended real whose absolute value is below the top is a real number. -/
theorem finite_of_abs_lt (x : EReal) (h : Ideal.cmp .olt (max x (-x)) ⊤ = 1#1) : x ≠ ⊥ ∧ x ≠ ⊤ := by
  unfold Ideal.cmp at h
  rw [ofBool_eq_one] at h
  simp only [decide_eq_true_eq] at h
  induction x using EReal.rec with
  | bot => simp at h
  | top => simp at h
  | coe r => exact ⟨EReal.coe_ne_bot r, EReal.coe_ne_top r⟩

/-- The sum of row `n` as the reduction over the second axis gives it, from zero. -/
theorem rowSum (H : FVec Ideal S8192x2048 .f32) (n : Fin 8192) (h' : S8192x2048.ReducesTo [1] S8192) (hu : 0 < S_.numel) :
    Host.reduceAdd (F := Ideal) H (constant S_ .f32 0x00000000#32) h' hu (ix1 n) = Cert.Hyper.rowDeg H n := by
  rw [hostReduceAdd_apply, Ideal.hostReduceAdd_single h' (by decide)]
  have z : (constant (F := Ideal) S_ .f32 0x00000000#32) (Shape.Idx.first hu) = 0 := Ideal.ofBits_zero_f32
  rw [z, zero_add]
  unfold Cert.Hyper.rowDeg
  refine Finset.sum_congr rfl fun k _ => congrArg H ?_
  funext d; match d with | ⟨0, _⟩ => rfl | ⟨1, _⟩ => rfl

/-- The sum of column `e` as the reduction over the first axis gives it, from zero. -/
theorem colSum (H : FVec Ideal S8192x2048 .f32) (c : Fin 2048) (h' : S8192x2048.ReducesTo [0] S2048) (hu : 0 < S_.numel) :
    Host.reduceAdd (F := Ideal) H (constant S_ .f32 0x00000000#32) h' hu (ix1 c) = Cert.Hyper.colDeg H c := by
  rw [hostReduceAdd_apply, Ideal.hostReduceAdd_single h' (by decide)]
  have z : (constant (F := Ideal) S_ .f32 0x00000000#32) (Shape.Idx.first hu) = 0 := Ideal.ofBits_zero_f32
  rw [z, zero_add]
  unfold Cert.Hyper.colDeg
  refine Finset.sum_congr rfl fun k _ => congrArg H ?_
  funext d; match d with | ⟨0, _⟩ => rfl | ⟨1, _⟩ => rfl

/-- The precondition, read: the incidence matrix is admissible. -/
theorem of_pre (X : FVec Ideal Cert.Pre_finite_inputs.S8192x256 .f32) (H : FVec Ideal Cert.Pre_finite_inputs.S8192x2048 .f32)
    (W : FVec Ideal Cert.Pre_finite_inputs.S256x256 .f32) (b : FVec Ideal Cert.Pre_finite_inputs.S256 .f32)
    (h : Cert.Pre_finite_inputs.fn (F := Ideal) X H W b = fun _ => 1#1) : Admissible H := by
  have e := congrFun h ix0
  dsimp only [Cert.Pre_finite_inputs.fn, Cert.Pre_finite_inputs.fn_part1] at e
  simp only [andi, IntOp.andi_eq_one] at e
  obtain ⟨⟨⟨⟨⟨-, hH⟩, -⟩, -⟩, hrow⟩, hcol⟩ := e
  refine ⟨fun n => ?_, fun c => ?_, fun i => ?_⟩
  · have t := Host.reduce_andi_all _ _ _ _ _ hrow (ix1 n)
    have t' : Ideal.cmp .ogt (Host.reduceAdd (F := Ideal) H (constant S_ .f32 0x00000000#32) _ _ (ix1 n))
        (Ideal.ofBits .f32 0x00000000#32) = 1#1 := t
    rw [rowSum, Ideal.ofBits_zero_f32] at t'
    unfold Ideal.cmp at t'
    rw [ofBool_eq_one] at t'
    simpa using t'
  · have t := Host.reduce_andi_all _ _ _ _ _ hcol (ix1 c)
    have t' : Ideal.cmp .une (Host.reduceAdd (F := Ideal) H (constant S_ .f32 0x00000000#32) _ _ (ix1 c))
        (Ideal.ofBits .f32 0x00000000#32) = 1#1 := t
    rw [colSum, Ideal.ofBits_zero_f32] at t'
    unfold Ideal.cmp at t'
    rw [ofBool_eq_one] at t'
    simpa using t'
  · have t := Host.reduce_andi_all _ _ _ _ _ hH i
    have t' : Ideal.cmp .olt (max (H i) (-(H i))) (Ideal.ofBits .f32 0x7F800000#32) = 1#1 := t
    rw [inf_bits] at t'
    exact finite_of_abs_lt _ t'

end Cert.PreFacts

end
-- ==== Proof.PowLaws.lean ====
import Idealize.ShloMosaic.PureOps.Ideal
import Mathlib.Analysis.SpecialFunctions.Pow.Real
import Mathlib.Data.EReal.Inv

noncomputable section

namespace Cert.PowLaws

open Idealize.ShloMosaic
open scoped BigOperators

/-- The pattern of minus one half. -/
theorem neg_half_bits : Ideal.ofBits .f32 0xBF000000#32 = (((-1 / 2 : ℝ)) : EReal) := by
  simp [Ideal.ofBits, Ideal.ieee, -EReal.coe_mul, -EReal.coe_neg]; norm_num

/-- The pattern of minus one. -/
theorem neg_one_bits : Ideal.ofBits .f32 0xBF800000#32 = (((-1 : ℝ)) : EReal) := by
  simp [Ideal.ofBits, Ideal.ieee, -EReal.coe_mul, -EReal.coe_neg]; norm_num

/-- A positive extended real to the power minus one half is its reciprocal square root. -/
theorem pow_neg_half (s : EReal) (hs : 0 < s) : Ideal.pow s (Ideal.ofBits .f32 0xBF000000#32) = Ideal.rsqrt s := by
  rw [neg_half_bits]
  induction s using EReal.rec with
  | bot => exact absurd hs (by simp)
  | top =>
    have h1 : ¬ (0 : EReal) < (((-1 / 2 : ℝ)) : EReal) := by
      rw [EReal.coe_pos]; norm_num
    have h2 : ((((-1 / 2 : ℝ)) : EReal)) ≠ 0 := by
      rw [Ne, EReal.coe_eq_zero]; norm_num
    rw [Ideal.pow_top, Ideal.rsqrt_top, if_neg h1, if_neg h2]
  | coe r =>
    have hr : 0 < r := EReal.coe_pos.mp hs
    rw [Ideal.pow_coe_coe, Ideal.rsqrt_coe, if_neg (not_lt.mpr hr.le), if_neg hr.ne']
    congr 1
    rw [show (-1 / 2 : ℝ) = -(1 / 2) by norm_num]
    show r ^ (-(1 / 2 : ℝ)) = (Real.sqrt r)⁻¹
    rw [Real.rpow_neg hr.le, ← Real.sqrt_eq_rpow]

/-- An extended real that is neither zero nor the bottom, to the power minus one, is its reciprocal. -/
theorem pow_neg_one (s : EReal) (h0 : s ≠ 0) (hb : s ≠ ⊥) : Ideal.pow s (Ideal.ofBits .f32 0xBF800000#32) = Ideal.div 1 s := by
  rw [neg_one_bits]
  unfold Ideal.div
  rw [if_neg h0, one_mul]
  induction s using EReal.rec with
  | bot => exact absurd rfl hb
  | top =>
    have h1 : ¬ (0 : EReal) < (((-1 : ℝ)) : EReal) := by
      rw [EReal.coe_pos]; norm_num
    have h2 : ((((-1 : ℝ)) : EReal)) ≠ 0 := by
      rw [Ne, EReal.coe_eq_zero]; norm_num
    rw [Ideal.pow_top, if_neg h1, if_neg h2, EReal.inv_top]
  | coe r =>
    rw [Ideal.pow_coe_coe]
    show ((r ^ (-1 : ℝ) : ℝ) : EReal) = _
    rw [Real.rpow_neg_one, EReal.coe_inv]

/-- A finite sum of extended reals none of which is the bottom is not the bottom. -/
theorem sum_ne_bot {ι : Type} (S : Finset ι) (f : ι → EReal) (hf : ∀ i, f i ≠ ⊥) : ∑ i ∈ S, f i ≠ ⊥ := by
  classical
  induction S using Finset.induction_on with
  | empty => simp
  | insert a S ha ih =>
    rw [Finset.sum_insert ha]
    exact EReal.add_ne_bot_iff.mpr ⟨hf a, ih⟩

end Cert.PowLaws

end
-- ==== Proof.RefValue.lean ====
import proofs.«409522_j46737834115089_3_alg».proof.Defs
import proofs.«409522_j46737834115089_3_alg».proof.Proof.Gen.ReferenceIdeal
import proofs.«409522_j46737834115089_3_alg».proof.Proof.Gen.ReferenceIdeal.Run
import proofs.«409522_j46737834115089_3_alg».proof.Proof.Gen.ReferenceIdeal.Read
import proofs.«409522_j46737834115089_3_alg».proof.Proof.Gen.Pre_finite_inputs
import proofs.«409522_j46737834115089_3_alg».proof.Proof.Spec
import proofs.«409522_j46737834115089_3_alg».proof.Proof.PreFacts
import proofs.«409522_j46737834115089_3_alg».proof.Proof.PowLaws

noncomputable section

namespace Cert.RefValue

open Cert.ReferenceIdeal Cert.ReferenceIdeal.Gen Cert.ReferenceIdeal.Read
open Idealize.ShloMosaic Idealize.ShloMosaic.TcCoe Idealize.SL.Sem Idealize.ShloMosaic.ValueIdx
open scoped BigOperators

variable (X : Cert.Hyper.SX.Idx → EReal) (H : Cert.Hyper.SH.Idx → EReal) (W : Cert.Hyper.SW.Idx → EReal)
  (b : Cert.Hyper.Sb.Idx → EReal)

/-- The degree of a hyperedge of an admissible incidence matrix is not the bottom: a sum of real numbers. -/
theorem colDeg_ne_bot (hadm : Cert.PreFacts.Admissible H) (e : Fin 2048) : Cert.Hyper.colDeg H e ≠ ⊥ :=
  Cert.PowLaws.sum_ne_bot _ _ fun n => (hadm.finite (ix2 n e)).1

/-- The node scaling: the row sum to the power minus one half is its reciprocal square root. -/
theorem v2_eq (hadm : Cert.PreFacts.Admissible H) (n : Fin 8192) :
    val_main_v2 (F := Ideal) H (ix1 n) = Ideal.rsqrt (Cert.Hyper.rowDeg H n) := by
  rw [val_main_v2_apply, val_main_v0_apply, val_main_v1_apply, val_main_cst_0_apply, val_main_cst_apply]
  have hs : ∑ k : Fin 2048, H (idx_main_v0 (ix1 n) k) = Cert.Hyper.rowDeg H n :=
    Finset.sum_congr rfl fun k _ => congrArg H (funext fun a => by match a with | ⟨0, _⟩ => rfl | ⟨1, _⟩ => rfl)
  rw [hs]
  show Ideal.pow (Ideal.ofBits .f32 0x00000000#32 + Cert.Hyper.rowDeg H n) (Ideal.ofBits .f32 0xBF000000#32) = _
  rw [Ideal.ofBits_zero_f32, zero_add]
  exact Cert.PowLaws.pow_neg_half _ (hadm.row_pos n)

/-- The hyperedge scaling: the column sum to the power minus one is its reciprocal. -/
theorem v5_eq (hadm : Cert.PreFacts.Admissible H) (e : Fin 2048) :
    val_main_v5 (F := Ideal) H (ix1 e) = Ideal.div 1 (Cert.Hyper.colDeg H e) := by
  rw [val_main_v5_apply, val_main_v3_apply, val_main_v4_apply, val_main_cst_2_apply, val_main_cst_1_apply]
  have hs : ∑ k : Fin 8192, H (idx_main_v3 (ix1 e) k) = Cert.Hyper.colDeg H e :=
    Finset.sum_congr rfl fun k _ => congrArg H (funext fun a => by match a with | ⟨0, _⟩ => rfl | ⟨1, _⟩ => rfl)
  rw [hs]
  show Ideal.pow (Ideal.ofBits .f32 0x00000000#32 + Cert.Hyper.colDeg H e) (Ideal.ofBits .f32 0xBF800000#32) = _
  rw [Ideal.ofBits_zero_f32, zero_add]
  exact Cert.PowLaws.pow_neg_one _ (hadm.col_ne e) (colDeg_ne_bot H hadm e)

/-- The scaled hyperedge aggregate. -/
theorem v10_eq (hadm : Cert.PreFacts.Admissible H) (e : Fin 2048) (f : Fin 256) :
    val_main_v10 (F := Ideal) X H (ix2 e f) = Cert.Hyper.edgeAgg X H f e := by
  rw [val_main_v10_apply, val_main_v7_apply, val_main_v9_apply, val_main_v8_apply]
  have hi : idx_main_v8 (idx_main_v9 (ix2 e f)) = ix1 e := funext fun a => by match a with | ⟨0, _⟩ => rfl
  rw [hi, v5_eq H hadm e]
  unfold Cert.Hyper.edgeAgg
  show (∑ k : Fin 8192, _) * _ = _
  congr 1
  refine Finset.sum_congr rfl fun k _ => ?_
  have e1 : ridx_main_v7 (ix2 e f) k = ix2 k f := funext fun a => by match a with | ⟨0, _⟩ => rfl | ⟨1, _⟩ => rfl
  have e2 : idx_main_v6 (lidx_main_v7 (ix2 e f) k) = ix2 k e := funext fun a => by match a with | ⟨0, _⟩ => rfl | ⟨1, _⟩ => rfl
  rw [val_main_v6_apply, e1, e2, mul_comm]

/-- The scaled node aggregate. -/
theorem v14_eq (hadm : Cert.PreFacts.Admissible H) (n : Fin 8192) (f : Fin 256) :
    val_main_v14 (F := Ideal) X H (ix2 n f) = Cert.Hyper.nodeAgg X H n f := by
  rw [val_main_v14_apply, val_main_v11_apply, val_main_v13_apply, val_main_v12_apply]
  have hi : idx_main_v12 (idx_main_v13 (ix2 n f)) = ix1 n := funext fun a => by match a with | ⟨0, _⟩ => rfl
  rw [hi, v2_eq H hadm n]
  unfold Cert.Hyper.nodeAgg
  show (∑ k : Fin 2048, _) * _ = _
  congr 1
  refine Finset.sum_congr rfl fun k _ => ?_
  have e1 : lidx_main_v11 (ix2 n f) k = ix2 n k := funext fun a => by match a with | ⟨0, _⟩ => rfl | ⟨1, _⟩ => rfl
  have e2 : ridx_main_v11 (ix2 n f) k = ix2 k f := funext fun a => by match a with | ⟨0, _⟩ => rfl | ⟨1, _⟩ => rfl
  rw [e1, e2, v10_eq X H hadm k f]

/-- The reference's result array is the specification's, when the incidence matrix is admissible. -/
theorem result_eq (hadm : Cert.PreFacts.Admissible H) :
    val_main_v19 (F := Ideal) X H W b = Cert.Hyper.G X H W b := by
  funext i
  obtain ⟨n, o, rfl⟩ : ∃ n o, i = ix2 n o := ⟨i 0, i 1, eq_ix2 i⟩
  rw [Cert.Hyper.G_ix2, val_main_v19_apply, val_main_v16_apply, val_main_v18_apply, val_main_v17_apply]
  have hb : idx_main_v17 (idx_main_v18 (ix2 n o)) = ix1 o := funext fun a => by match a with | ⟨0, _⟩ => rfl
  rw [hb]
  unfold Cert.Hyper.out
  show (∑ k : Fin 256, _) + _ = _
  congr 1
  refine Finset.sum_congr rfl fun k _ => ?_
  have e1 : lidx_main_v16 (ix2 n o) k = ix2 n k := funext fun a => by match a with | ⟨0, _⟩ => rfl | ⟨1, _⟩ => rfl
  have e2 : idx_main_v15 (ridx_main_v16 (ix2 n o) k) = ix2 o k := funext fun a => by match a with | ⟨0, _⟩ => rfl | ⟨1, _⟩ => rfl
  rw [val_main_v15_apply, e1, e2, v14_eq X H hadm n k]

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's run ends with its result at the specification of its arguments, when the incidence matrix is
    admissible, and with its arguments unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg)
    (hadm : ∀ c : Dev Cert.ReferenceIdeal.nD, Cert.PreFacts.Admissible
      (m' ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v19)
          = Cert.Hyper.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((val_main_v19_eq _ _ _ _).trans (result_eq _ _ _ _ (hadm c))), (h c).2⟩)
    (Cert.ReferenceIdeal.Value.run (F := Ideal) m' ρ')

end Cert.RefValue

end
-- ==== Proof.lean ====
/-
  A hypergraph convolution in two launches against its plain reference.

  With `X : 8192 × 256` node features, `H : 8192 × 2048` an incidence matrix, `W : 256 × 256` and `b : 256`, the
  reference computes `out = ((H · ((Hᵀ X) · De)) · Dv) Wᵀ + b` with `De = diag (colsum H) ^ (-1)` and
  `Dv = diag (rowsum H) ^ (-1/2)`.  The kernel does it in two launches: the first walks the rows in 16 tiles of 512, eight
  per core, accumulating per core a partial `(Hᵀ X)ᵀ` and a partial column sum; between the launches the two partials
  are added and scaled by the reciprocal of the added column sums; the second launch, tile of rows by tile of rows,
  contracts `H` against that aggregate, scales by the reciprocal square root of the row sum and applies the linear layer.

  On the extended reals the two agree wherever the reference's two negative powers are inside their domain — every row
  sum of `H` positive, every column sum nonzero, which the precondition states beside finiteness: there
  `s ^ (-1/2) = (√s)⁻¹` and `s ^ (-1) = 1 / s`.  Nothing else is needed: both programs scale AFTER each contraction, so no
  product is distributed over a sum, and a sum of 8192 terms taken in 2 × 8 blocks of 512 is the same sum.

  The frames: each launch is entered from "every unscoped buffer at the boundary's contents" and left at the next
  boundary's; the first launch's invariant carries its two accumulators from point to point; the same text, generic in
  the float instance, proves the word-level program's frame.  The value: the last boundary's contents at the result array,
  read back through the second launch's blocks, the host operations and the first launch's accumulators, are the
  specification's function `G` of the four arguments; the reference's run ends at the same `G`.
-/
import proofs.«409522_j46737834115089_3_alg».proof.Defs
import proofs.«409522_j46737834115089_3_alg».proof.Proof.Gen.Kernel
import proofs.«409522_j46737834115089_3_alg».proof.Proof.Gen.KernelIdeal
import proofs.«409522_j46737834115089_3_alg».proof.Proof.Gen.ReferenceIdeal
import proofs.«409522_j46737834115089_3_alg».proof.Proof.Gen.Pre_finite_inputs
import proofs.«409522_j46737834115089_3_alg».proof.Proof.Bits.RunArgs
import proofs.«409522_j46737834115089_3_alg».proof.Proof.RunArgs
import proofs.«409522_j46737834115089_3_alg».proof.Proof.Bridge
import proofs.«409522_j46737834115089_3_alg».proof.Proof.RefValue
import proofs.«409522_j46737834115089_3_alg».proof.Proof.PreFacts

noncomputable section

namespace Cert.Proof

open Idealize.ShloMosaic Idealize.ShloMosaic.TcCoe Idealize.SL.Sem

/-- The word-level program runs and leaves its four arguments as launched: the run to the last boundary, read at the
    arguments. -/
theorem frame_k : Cert.frame_Kernel := fun m ρ _ =>
  (θ_run (Cert.Kernel.defs (F := Bits)) _ _).mono (fun r h c =>
    ⟨(h c _ (Cert.Kernel.Run.mem_uc Cert.Kernel.main_arg0 (by decide))).trans (Cert.Kernel.RunArgs.W3_main_arg0 m ρ c),
     (h c _ (Cert.Kernel.Run.mem_uc Cert.Kernel.main_arg1 (by decide))).trans (Cert.Kernel.RunArgs.W3_main_arg1 m ρ c),
     (h c _ (Cert.Kernel.Run.mem_uc Cert.Kernel.main_arg2 (by decide))).trans (Cert.Kernel.RunArgs.W3_main_arg2 m ρ c),
     (h c _ (Cert.Kernel.Run.mem_uc Cert.Kernel.main_arg3 (by decide))).trans (Cert.Kernel.RunArgs.W3_main_arg3 m ρ c)⟩)
    (Cert.Kernel.Run.run_all (F := Bits) m ρ)

/-- The idealized program's run to the last boundary, read at the result and at the arguments. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8)
          = Cert.Hyper.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono (fun r h c =>
    ⟨(h c _ (Cert.KernelIdeal.Run.mem_uc Cert.KernelIdeal.main_v8 (by decide))).trans (Cert.KernelIdeal.Bridge.W3_main_v8 m ρ c),
     (h c _ (Cert.KernelIdeal.Run.mem_uc Cert.KernelIdeal.main_arg0 (by decide))).trans (Cert.KernelIdeal.RunArgs.W3_main_arg0 m ρ c),
     (h c _ (Cert.KernelIdeal.Run.mem_uc Cert.KernelIdeal.main_arg1 (by decide))).trans (Cert.KernelIdeal.RunArgs.W3_main_arg1 m ρ c),
     (h c _ (Cert.KernelIdeal.Run.mem_uc Cert.KernelIdeal.main_arg2 (by decide))).trans (Cert.KernelIdeal.RunArgs.W3_main_arg2 m ρ c),
     (h c _ (Cert.KernelIdeal.Run.mem_uc Cert.KernelIdeal.main_arg3 (by decide))).trans (Cert.KernelIdeal.RunArgs.W3_main_arg3 m ρ c)⟩)
    (Cert.KernelIdeal.Run.run_all (F := Ideal) m ρ)

/-- The idealized program's frame: its run with the result dropped. -/
theorem frame_ki : Cert.frame_KernelIdeal := fun m ρ _ =>
  (θ_run (Cert.KernelIdeal.defs (F := Ideal)) _ _).mono (fun _ h c => (h c).2) (run_ki m ρ)

/-- Both idealized programs end at the specification's function of the arguments: the kernel's by its run, the
    reference's by its own, where the precondition makes the incidence matrix admissible. -/
theorem algebraic : Cert.algebraic_KernelIdeal_ReferenceIdeal := by
  intro m ρ m' ρ' hpre hagree
  refine ⟨fun c => Cert.Hyper.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), run_ki m ρ, ?_⟩
  have hadm : ∀ c : Dev Cert.ReferenceIdeal.nD, Cert.PreFacts.Admissible (m' ((c.tc : Thread Cert.ReferenceIdeal.nD Cert.ReferenceIdeal.τ).loc Cert.ReferenceIdeal.main_arg1)) := fun c => by
    rw [(hagree c).2.1]; exact Cert.PreFacts.of_pre _ _ _ _ (hpre c)
  refine (θ_run (Cert.ReferenceIdeal.defs (F := Ideal)) _ _).mono (fun r h c => ⟨?_, (h c).2⟩) (Cert.RefValue.run_G m' ρ' hadm)
  rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.RefValue.frame_ri, trivial, algebraic⟩

end Cert.Proof

end
